-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x20000 : Shape := ⟨2, ![512, 20000]⟩
abbrev S500000 : Shape := ⟨1, ![500000]⟩
abbrev S1000 : Shape := ⟨1, ![1000]⟩
abbrev S_ : Shape := ⟨0, ![]⟩

class Facts : Prop where
  bcast_S_S512x20000 : S_.BroadcastsInDim S512x20000 (![] : Fin 0 → Fin S512x20000.rank)
  reducesTo_S512x20000_S_d0_1 : S512x20000.ReducesTo [0, 1] S_
  h_S_ : 0 < S_.numel
  bcast_S_S500000 : S_.BroadcastsInDim S500000 (![] : Fin 0 → Fin S500000.rank)
  reducesTo_S500000_S_d0 : S500000.ReducesTo [0] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg3 : IVec S500000 32) (main_arg4 : IVec S500000 32) (main_v13 : IVec S_ 1) (main_v15 : IVec S500000 1) (main_c_5 : IVec S_ 1) : IVec S_ 1 :=
  let main_v16 : IVec S_ 1 := (fun x v => Host.reduce IntOp.andi x v reducesTo_S500000_S_d0 h_S_) main_v15 main_c_5
  let main_v17 : IVec S_ 1 := andi main_v13 main_v16
  let main_c_6 : IVec S_ 32 := constantI S_ 32 20000#32
  let main_v18 : IVec S500000 32 := broadcastInDim S500000 ![] bcast_S_S500000 main_c_6
  let main_v19 : IVec S500000 1 := cmpi .slt main_arg4 main_v18
  let main_c_7 : IVec S_ 1 := constantI S_ 1 1#1
  let main_v20 : IVec S_ 1 := (fun x v => Host.reduce IntOp.andi x v reducesTo_S500000_S_d0 h_S_) main_v19 main_c_7
  let main_v21 : IVec S_ 1 := andi main_v17 main_v20
  let main_c_8 : IVec S_ 32 := constantI S_ 32 0#32
  let main_v22 : IVec S500000 32 := broadcastInDim S500000 ![] bcast_S_S500000 main_c_8
  let main_v23 : IVec S500000 1 := cmpi .sge main_arg3 main_v22
  let main_c_9 : IVec S_ 1 := constantI S_ 1 1#1
  let main_v24 : IVec S_ 1 := (fun x v => Host.reduce IntOp.andi x v reducesTo_S500000_S_d0 h_S_) main_v23 main_c_9
  let main_v25 : IVec S_ 1 := andi main_v21 main_v24
  main_v25

def fn {F : FTy → Type} [FloatOps F] (main_arg0 : FVec F S512x20000 .f32) (main_arg1 : FVec F S500000 .f32) (main_arg2 : FVec F S1000 .f32) (main_arg3 : IVec S500000 32) (main_arg4 : IVec S500000 32) : IVec S_ 1 :=
  let main_v0 : FVec F S512x20000 .f32 := Host.absf main_arg0
  let main_cst : FVec F S_ .f32 := constant S_ .f32 0x7F800000#32
  let main_v1 : FVec F S512x20000 .f32 := broadcastInDim S512x20000 ![] bcast_S_S512x20000 main_cst
  let main_v2 : IVec S512x20000 1 := cmpf .olt main_v0 main_v1
  let main_c : IVec S_ 1 := constantI S_ 1 1#1
  let main_v3 : IVec S_ 1 := (fun x v => Host.reduce IntOp.andi x v reducesTo_S512x20000_S_d0_1 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_c_4 : IVec S_ 32 := constantI S_ 32 0#32
  let main_v14 : IVec S500000 32 := broadcastInDim S500000 ![] bcast_S_S500000 main_c_4
  let main_v15 : IVec S500000 1 := cmpi .sge main_arg4 main_v14
  let main_c_5 : IVec S_ 1 := constantI S_ 1 1#1
  fn_part1 (F := F) main_arg3 main_arg4 main_v13 main_v15 main_c_5
-- ==== Kernel.lean ====
abbrev S512x20000 : Shape := ⟨2, ![512, 20000]⟩
abbrev S500000 : Shape := ⟨1, ![500000]⟩
abbrev S1000 : Shape := ⟨1, ![1000]⟩
abbrev S_ : Shape := ⟨0, ![]⟩
abbrev S20480x1024 : Shape := ⟨2, ![20480, 1024]⟩
abbrev S500000x1 : Shape := ⟨2, ![500000, 1]⟩
abbrev S500000x2 : Shape := ⟨2, ![500000, 2]⟩
abbrev S512x20480 : Shape := ⟨2, ![512, 20480]⟩
abbrev S1024 : Shape := ⟨1, ![1024]⟩
abbrev S1x1024 : Shape := ⟨2, ![1, 1024]⟩
abbrev S512x1024 : Shape := ⟨2, ![512, 1024]⟩
abbrev S256x2560 : Shape := ⟨2, ![256, 2560]⟩
abbrev S2560x1024 : Shape := ⟨2, ![2560, 1024]⟩
abbrev S256x1024 : Shape := ⟨2, ![256, 1024]⟩
abbrev S512x1000 : Shape := ⟨2, ![512, 1000]⟩

abbrev nBuf : Space → Nat
  | .hbm => 36
  | .vmem => 7
  | .smem => 0
  | _ => 0

abbrev bufTy : (tb : Table) → Fin (tcTables nBuf tb) → BufTy
  | .hbm, ⟨0, _⟩ => ⟨S512x20000, .f32⟩
  | .hbm, ⟨1, _⟩ => ⟨S500000, .f32⟩
  | .hbm, ⟨2, _⟩ => ⟨S1000, .f32⟩
  | .hbm, ⟨3, _⟩ => ⟨S500000, .i32⟩
  | .hbm, ⟨4, _⟩ => ⟨S500000, .i32⟩
  | .hbm, ⟨5, _⟩ => ⟨S_, .f32⟩
  | .hbm, ⟨6, _⟩ => ⟨S20480x1024, .f32⟩
  | .hbm, ⟨7, _⟩ => ⟨S_, .i32⟩
  | .hbm, ⟨8, _⟩ => ⟨S500000, .i32⟩
  | .hbm, ⟨9, _⟩ => ⟨S500000, .i1⟩
  | .hbm, ⟨10, _⟩ => ⟨S_, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x1, .i32⟩
  | .hbm, ⟨23, _⟩ => ⟨S500000x2, .i32⟩
  | .hbm, ⟨24, _⟩ => ⟨S20480x1024, .f32⟩
  | .hbm, ⟨25, _⟩ => ⟨S20480x1024, .bf16⟩
  | .hbm, ⟨26, _⟩ => ⟨S_, .i32⟩
  | .hbm, ⟨27, _⟩ => ⟨S_, .f32⟩
  | .hbm, ⟨28, _⟩ => ⟨S512x20480, .f32⟩
  | .hbm, ⟨29, _⟩ => ⟨S512x20480, .bf16⟩
  | .hbm, ⟨30, _⟩ => ⟨S_, .i32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S512x1024, .f32⟩
  | .hbm, ⟨35, _⟩ => ⟨S512x1000, .f32⟩
  | .local _ .vmem, ⟨0, _⟩ => ⟨S256x2560, .bf16⟩
  | .local _ .vmem, ⟨1, _⟩ => ⟨S256x2560, .bf16⟩
  | .local _ .vmem, ⟨2, _⟩ => ⟨S2560x1024, .bf16⟩
  | .local _ .vmem, ⟨3, _⟩ => ⟨S2560x1024, .bf16⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | _, _ => ⟨S512x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_call1_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S20480x1024 : S_.BroadcastsInDim S20480x1024 (![] : Fin 0 → Fin S20480x1024.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x1_S500000x1_S500000x2_d1 : Shape.Concatenates [S500000x1, S500000x1] S500000x2 1
  bitsLt_bf16_f32 : FTy.bits .bf16 < FTy.bits .f32
  pads_S512x20000_S512x20480_000_04800 : S512x20000.Pads (![0, 0] : Fin 2 → Nat) ![0, 480] ![0, 0] S512x20480
  h_S_ : 0 < S_.numel
  pads_S1000_S1024_0240 : S1000.Pads (![0] : Fin 1 → Nat) ![24] ![0] S1024
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2560_S256x2560_0_0 : ∀ a, (![0, 0] : Fin 2 → Nat) a + S256x2560.size a ≤ S256x2560.size a
  h_S256x2560 : 0 < S256x2560.numel
  shapeCasts_S256x2560_S256x2560 : S256x2560.ShapeCasts S256x2560
  inb_S2560x1024_S2560x1024_0_0 : ∀ a, (![0, 0] : Fin 2 → Nat) a + S2560x1024.size a ≤ S2560x1024.size a
  h_S2560x1024 : 0 < S2560x1024.numel
  shapeCasts_S2560x1024_S2560x1024 : S2560x1024.ShapeCasts S2560x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  slices_S512x1024_S512x1000_0_0 : S512x1024.Slices ![0, 0] S512x1000
  scatter_S20480x1024_S500000x2_S500000_n_01_01_1_wf : ScatterDims.WF S20480x1024 S500000x2 S500000 [] [0, 1] [0, 1] 1
  dot_S256x2560_S2560x1024_S256x1024_1_0_0_1_n_n_wf : DotDims.WF S256x2560 S2560x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2560.size a ≤ S512x20480.size a
  hwx0_0 : ∀ i : grid0.Coords, EltTy.bits .bf16 = 32 ∨ (Rect.block (s := S512x20480) S256x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x1024.size a ≤ S20480x1024.size a
  hwx0_1 : ∀ i : grid0.Coords, EltTy.bits .bf16 = 32 ∨ (Rect.block (s := S20480x1024) S2560x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S512x1024.size a
  hwx0_3 : ∀ i : grid0.Coords, EltTy.bits .f32 = 32 ∨ (Rect.block (s := S512x1024) S256x1024.size (cc0_transform_3 i) (hinb0_3 i)).WholeWords (EltTy.packing .f32)

variable [Facts₀]

def scatter_S20480x1024_S500000x2_S500000_n_01_01_1 : ScatterDims S20480x1024 S500000x2 S500000 where
  updateWindowDims := []
  insertedWindowDims := [0, 1]
  scatterDimsToOperandDims := [0, 1]
  indexVectorDim := 1
  wf := scatter_S20480x1024_S500000x2_S500000_n_01_01_1_wf
def dot_S256x2560_S2560x1024_S256x1024_1_0_0_1_n_n : DotDims S256x2560 S2560x1024 S256x1024 where
  lhsContracting := [1]
  rhsContracting := [0]
  lhsNonContracting := [0]
  rhsNonContracting := [1]
  lhsBatch := []
  rhsBatch := []
  wf := dot_S256x2560_S2560x1024_S256x1024_1_0_0_1_n_n_wf

abbrev win0_0 : Pipeline.Window sig grid0 :=
  Pipeline.Window.ofSpec (Memref.whole main_v17) S256x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2560x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x20000 : Shape := ⟨2, ![512, 20000]⟩
abbrev S500000 : Shape := ⟨1, ![500000]⟩
abbrev S1000 : Shape := ⟨1, ![1000]⟩
abbrev S_ : Shape := ⟨0, ![]⟩
abbrev S500000x1 : Shape := ⟨2, ![500000, 1]⟩
abbrev S512x500000 : Shape := ⟨2, ![512, 500000]⟩
abbrev S1x500000 : Shape := ⟨2, ![1, 500000]⟩
abbrev S500000x512 : Shape := ⟨2, ![500000, 512]⟩
abbrev S1000x512 : Shape := ⟨2, ![1000, 512]⟩
abbrev S512x1000 : Shape := ⟨2, ![512, 1000]⟩
abbrev S1x1000 : Shape := ⟨2, ![1, 1000]⟩

abbrev nBuf : Space → Nat
  | .hbm => 45
  | .vmem => 0
  | .smem => 0
  | _ => 0

abbrev bufTy : (tb : Table) → Fin (tcTables nBuf tb) → BufTy
  | .hbm, ⟨0, _⟩ => ⟨S512x20000, .f32⟩
  | .hbm, ⟨1, _⟩ => ⟨S500000, .f32⟩
  | .hbm, ⟨2, _⟩ => ⟨S1000, .f32⟩
  | .hbm, ⟨3, _⟩ => ⟨S500000, .i32⟩
  | .hbm, ⟨4, _⟩ => ⟨S500000, .i32⟩
  | .hbm, ⟨5, _⟩ => ⟨S_, .i32⟩
  | .hbm, ⟨6, _⟩ => ⟨S500000, .i32⟩
  | .hbm, ⟨7, _⟩ => ⟨S500000, .i1⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S512x500000, .f32⟩
  | .hbm, ⟨14, _⟩ => ⟨S1x500000, .f32⟩
  | .hbm, ⟨15, _⟩ => ⟨S512x500000, .f32⟩
  | .hbm, ⟨16, _⟩ => ⟨S512x500000, .f32⟩
  | .hbm, ⟨17, _⟩ => ⟨S500000x512, .f32⟩
  | .hbm, ⟨18, _⟩ => ⟨S_, .f32⟩
  | .hbm, ⟨19, _⟩ => ⟨S1000x512, .f32⟩
  | .hbm, ⟨20, _⟩ => ⟨S500000x1, .i32⟩
  | .hbm, ⟨21, _⟩ => ⟨S1000x512, .f32⟩
  | .hbm, ⟨22, _⟩ => ⟨S512x1000, .f32⟩
  | .hbm, ⟨23, _⟩ => ⟨S1x1000, .f32⟩
  | .hbm, ⟨24, _⟩ => ⟨S512x1000, .f32⟩
  | .hbm, ⟨25, _⟩ => ⟨S512x1000, .f32⟩
  | .hbm, ⟨26, _⟩ => ⟨S_, .f32⟩
  | .hbm, ⟨27, _⟩ => ⟨S_, .f32⟩
  | .hbm, ⟨28, _⟩ => ⟨S512x1000, .f32⟩
  | .hbm, ⟨29, _⟩ => ⟨S512x1000, .i1⟩
  | .hbm, ⟨30, _⟩ => ⟨S_, .f32⟩
  | .hbm, ⟨31, _⟩ => ⟨S512x1000, .f32⟩
  | .hbm, ⟨32, _⟩ => ⟨S512x1000, .i1⟩
  | .hbm, ⟨33, _⟩ => ⟨S_, .f32⟩
  | .hbm, ⟨34, _⟩ => ⟨S_, .f32⟩
  | .hbm, ⟨35, _⟩ => ⟨S512x1000, .f32⟩
  | .hbm, ⟨36, _⟩ => ⟨S512x1000, .f32⟩
  | .hbm, ⟨37, _⟩ => ⟨S512x1000, .f32⟩
  | .hbm, ⟨38, _⟩ => ⟨S_, .f32⟩
  | .hbm, ⟨39, _⟩ => ⟨S512x1000, .f32⟩
  | .hbm, ⟨40, _⟩ => ⟨S512x1000, .f32⟩
  | .hbm, ⟨41, _⟩ => ⟨S512x1000, .f32⟩
  | .hbm, ⟨42, _⟩ => ⟨S_, .f32⟩
  | .hbm, ⟨43, _⟩ => ⟨S512x1000, .f32⟩
  | .hbm, ⟨44, _⟩ => ⟨S512x1000, .f32⟩
  | _, _ => ⟨S512x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_cst_0 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_cst_1 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_v0 : Ref sig .tc := ⟨.hbm, 41, rfl⟩
abbrev main_call0_cst_0 : Ref sig .tc := ⟨.hbm, 42, rfl⟩
abbrev main_call0_v1 : Ref sig .tc := ⟨.hbm, 43, rfl⟩
abbrev main_v18 : Ref sig .tc := ⟨.hbm, 44, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S500000_S1x500000_1 : S500000.BroadcastsInDim S1x500000 (![1] : Fin 1 → Fin S1x500000.rank)
  bcast_S1x500000_S512x500000_0_1 : S1x500000.BroadcastsInDim S512x500000 (![0, 1] : Fin 2 → Fin S512x500000.rank)
  transposes_S512x500000_S500000x512_1_0 : S512x500000.Transposes [1, 0] S500000x512
  bcast_S_S1000x512 : S_.BroadcastsInDim S1000x512 (![] : Fin 0 → Fin S1000x512.rank)
  transposes_S1000x512_S512x1000_1_0 : S1000x512.Transposes [1, 0] S512x1000
  bcast_S1000_S1x1000_1 : S1000.BroadcastsInDim S1x1000 (![1] : Fin 1 → Fin S1x1000.rank)
  bcast_S1x1000_S512x1000_0_1 : S1x1000.BroadcastsInDim S512x1000 (![0, 1] : Fin 2 → Fin S512x1000.rank)
  bcast_S_S512x1000 : S_.BroadcastsInDim S512x1000 (![] : Fin 0 → Fin S512x1000.rank)
  gather_S512x20000_S500000x1_S512x500000_0_1_n_n_1_1_5121_wf : GatherDims.WF S512x20000 S500000x1 S512x500000 [0] [1] [] [1] [] 1 ![512, 1]
  scatter_S1000x512_S500000x1_S500000x512_1_0_0_1_wf : ScatterDims.WF S1000x512 S500000x1 S500000x512 [1] [0] [0] 1

variable [Facts₀]

def gather_S512x20000_S500000x1_S512x500000_0_1_n_n_1_1_5121 : GatherDims S512x20000 S500000x1 S512x500000 where
  offsetDims := [0]
  collapsedSliceDims := [1]
  operandBatchingDims := []
  startIndicesBatchingDims := []
  startIndexMap := [1]
  indexVectorDim := 1
  sliceSizes := ![512, 1]
  wf := gather_S512x20000_S500000x1_S512x500000_0_1_n_n_1_1_5121_wf
def scatter_S1000x512_S500000x1_S500000x512_1_0_0_1 : ScatterDims S1000x512 S500000x1 S500000x512 where
  updateWindowDims := [1]
  insertedWindowDims := [0]
  scatterDimsToOperandDims := [0]
  indexVectorDim := 1
  wf := scatter_S1000x512_S500000x1_S500000x512_1_0_0_1_wf

class Facts : Prop extends Facts₀ where

variable [Facts]
-- ==== Proof.PreFacts.lean ====
/-
  What the precondition says of the five argument arrays, element by element.
-/
import proofs.«417313_j45011257262636_2_alg».proof.Pre_finite_inputs
import proofs.«417313_j45011257262636_2_alg».proof.Proof.Gen.Pre_finite_inputs
import Idealize.ShloMosaic.PureOps.Ideal
import Idealize.ShloMosaic.PureOps.Ideal.Laws
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

/-- The domain the precondition states: every entry of `x`, `weight` and `bias` a real number; every input-column
    index in [0, 20000); every output-column index non-negative. -/
structure Dom (x : FVec Ideal S512x20000 .f32) (w : FVec Ideal S500000 .f32) (bias : FVec Ideal S1000 .f32)
    (oi ii : IVec S500000 32) : Prop where
  x_real : ∀ i, ∃ r : ℝ, x i = (r : EReal)
  w_real : ∀ i, ∃ r : ℝ, w i = (r : EReal)
  b_real : ∀ i, ∃ r : ℝ, bias i = (r : EReal)
  ii_lo : ∀ i, 0 ≤ (ii i).toInt
  ii_hi : ∀ i, (ii i).toInt < 20000
  oi_lo : ∀ i, 0 ≤ (oi i).toInt

/-- The scalar shape has one index: a reduction over every axis lands on it. -/
instance : Subsingleton S_.Idx := ⟨fun _ _ => funext fun d => d.elim0⟩

/-- The f32 word with all exponent bits set and a zero significand is +∞. -/
theorem inf_word : Ideal.ofBits .f32 0x7F800000#32 = (⊤ : EReal) := by simp [Ideal.ofBits, Ideal.ieee]

/-- An extended real whose absolute value max a (−a) lies strictly below +∞ is a real number: at −∞ and at +∞ the
    maximum is +∞ itself. -/
theorem real_of_abs_lt_inf (a : EReal)
    (h : Ideal.cmp .olt (max a (-a)) (Ideal.ofBits .f32 0x7F800000#32) = 1#1) : ∃ r : ℝ, a = (r : EReal) := by
  rw [inf_word] at h
  induction a using EReal.rec with
  | bot => simp [Ideal.cmp] at h
  | coe r => exact ⟨r, rfl⟩
  | top => simp [Ideal.cmp] at h

/-- The word 0 reads 0 signed. -/
theorem toInt_w0 : (0#32 : BitVec 32).toInt = 0 := by decide
/-- The word 20000 reads 20000 signed. -/
theorem toInt_w20000 : (20000#32 : BitVec 32).toInt = 20000 := by decide

/-- A signed "v ≥ 0" that came out 1 says the signed reading of v is non-negative. -/
theorem nonneg_of_sge (v : BitVec 32) (h : IntOp.cmpi .sge v 0#32 = 1#1) : 0 ≤ v.toInt := by
  have := IntOp.cmpi_sge.1 h
  rwa [toInt_w0] at this

/-- A signed "v < 20000" that came out 1 says the signed reading of v is below 20000. -/
theorem lt_of_slt (v : BitVec 32) (h : IntOp.cmpi .slt v 20000#32 = 1#1) : v.toInt < 20000 := by
  have := IntOp.cmpi_slt.1 h
  rwa [toInt_w20000] at this

/-- The printed predicate, all ones, gives the domain. (Arguments in the program's order: x, weight, bias, out_idx, in_idx.) -/
theorem dom_of_pre (x : FVec Ideal S512x20000 .f32) (w : FVec Ideal S500000 .f32) (bias : FVec Ideal S1000 .f32)
    (oi ii : IVec S500000 32) (h : Cert.Pre_finite_inputs.fn (F := Ideal) x w bias oi ii = fun _ => 1#1) :
    Dom x w bias oi ii := by
  -- the predicate's one word: a conjunction of six reductions by "and", each over a whole array
  have e := congrFun h ValueIdx.ix0
  unfold Cert.Pre_finite_inputs.fn Cert.Pre_finite_inputs.fn_part1 at e
  dsimp only at e
  simp only [andi, IntOp.andi_eq_one] at e
  obtain ⟨⟨⟨⟨⟨hx, hw⟩, hb⟩, hi0⟩, hi1⟩, ho0⟩ := e
  exact
    { x_real := fun i => real_of_abs_lt_inf (x i) (Host.reduce_andi_all _ _ _ _ _ hx i)
      w_real := fun i => real_of_abs_lt_inf (w i) (Host.reduce_andi_all _ _ _ _ _ hw i)
      b_real := fun i => real_of_abs_lt_inf (bias i) (Host.reduce_andi_all _ _ _ _ _ hb i)
      ii_lo := fun i => nonneg_of_sge (ii i) (Host.reduce_andi_all _ _ _ _ _ hi0 i)
      ii_hi := fun i => lt_of_slt (ii i) (Host.reduce_andi_all _ _ _ _ _ hi1 i)
      oi_lo := fun i => nonneg_of_sge (oi i) (Host.reduce_andi_all _ _ _ _ _ ho0 i) }

end Cert.PreFacts

end
-- ==== Proof.Terms.lean ====
/-
  The vocabulary the certificate's modules share, over the extended reals and 32-bit index words; no program is
  imported here.

  * `wrap n v`: how jax reads an index word `v` on an axis of extent `n` — a negative word counts from the end.
  * `clampIdx v`: where a gather along an axis of extent 20000 reads for the start word `v` — the start clamped
    into [0, 19999].
  * `actK`, `actR`: the two spellings of SELU, scale · (y if y > 0 else alpha · (e^y − 1)): the kernel subtracts 1
    from `exp y`; the reference applies expm1 to `y` where `y ≤ 0` and to `0` elsewhere.
-/
import Idealize.ShloMosaic.PureOps.Ideal
import Idealize.ShloMosaic.PureOps.Ideal.Laws
import Idealize.ShloMosaic.Lib.ValueIdx

noncomputable section

namespace Cert.Terms

open Idealize.ShloMosaic

/-- An index word on an axis of extent `n`: `v + n` when `v` is negative, else `v`. -/
def wrap (n v : BitVec 32) : BitVec 32 := Scalar.select (IntOp.cmpi .slt v 0#32) (IntOp.addi v n) v

/-- The column a gather along an axis of extent 20000 reads for the start word `v`. -/
def clampIdx (v : BitVec 32) : Fin 20000 := ⟨min v.toInt.toNat 19999, by omega⟩

/-- The f32 words of 0, 1, SELU's alpha and SELU's scale, at their exact values. -/
abbrev w0 : EReal := Ideal.ofBits .f32 0x00000000#32
abbrev w1 : EReal := Ideal.ofBits .f32 0x3F800000#32
abbrev wα : EReal := Ideal.ofBits .f32 0x3FD62D7D#32
abbrev wσ : EReal := Ideal.ofBits .f32 0x3F867D5F#32

/-- SELU as the kernel spells it. -/
def actK (y : EReal) : EReal :=
  wσ * Scalar.select (FloatOps.cmpf (F := Ideal) (φ := .f32) .ogt y w0) y (wα * (Ideal.exp y - w1))

/-- SELU as the reference spells it. -/
def actR (y : EReal) : EReal :=
  wσ * Scalar.select (FloatOps.cmpf (F := Ideal) (φ := .f32) .ogt y w0) y
    (wα * (Ideal.exp (Scalar.select (FloatOps.cmpf (F := Ideal) (φ := .f32) .ogt y w0) w0 y) - 1))

end Cert.Terms

end
-- ==== Proof.Cols.lean ====
/-
  Rows and columns of the padded arrays from the coordinates of a block: a batch half and a row inside it, a reduction
  step and a column inside it, and an output column among the padded ones. No program is imported here.
-/
import Idealize.ShloMosaic.Lib.ValueIdx

namespace Cert.Cols

/-- Batch row `256 * hb + p`: row `p` of batch half `hb`. -/
def row (hb : Fin 2) (p : Fin 256) : Fin 512 := ⟨256 * hb.val + p.val, by have := hb.isLt; have := p.isLt; omega⟩

/-- Reduction column `2560 * j + kk`: column `kk` of reduction step `j`. -/
def col (j : Fin 8) (kk : Fin 2560) : Fin 20480 := ⟨2560 * j.val + kk.val, by have := j.isLt; have := kk.isLt; omega⟩

/-- An output column, among the 1024 padded ones. -/
def ocol (o : Fin 1000) : Fin 1024 := ⟨o.val, by have := o.isLt; omega⟩

end Cert.Cols
-- ==== Proof.Spec.lean ====
/-
  The mathematics the two programs share, over the extended reals; no program is imported here.
-/
import proofs.«417313_j45011257262636_2_alg».proof.Proof.Terms
import Idealize.ShloMosaic.Lib.IdealHost
import Mathlib.Data.EReal.Basic
import Mathlib.Data.Fintype.BigOperators
import Mathlib.Algebra.BigOperators.Fin
import Mathlib.Algebra.BigOperators.Group.Finset.Sigma

noncomputable section

namespace Cert.Spec

open Idealize.ShloMosaic Cert.Terms

/-- The two spellings of SELU are one function of the extended reals. -/
theorem actR_eq_actK (y : EReal) : actR y = actK y := by
  unfold actR actK
  by_cases hc : FloatOps.cmpf (F := Ideal) (φ := .f32) .ogt y w0 = 1#1
  · -- where `y > 0` both spellings are `scale · y`
    rw [hc, ValueIdx.select_one, ValueIdx.select_one]
  · -- elsewhere the reference's inner choice is `y` itself, and the f32 word the kernel subtracts is the number 1
    rw [ValueIdx.eq_zero_of_ne_one hc, ValueIdx.select_zero, ValueIdx.select_zero, ValueIdx.select_zero,
      show w1 = 1 from Ideal.ofBits_one_f32]

/-- A non-negative index word is read as itself on any axis. -/
theorem wrap_of_nonneg (n v : BitVec 32) (h : 0 ≤ v.toInt) : wrap n v = v := by
  -- the signed test `v < 0` fails
  have hs : v.slt 0#32 = false := by
    rw [BitVec.slt, BitVec.toInt_zero]
    exact decide_eq_false (not_lt.mpr h)
  show Scalar.select (BitVec.ofBool (v.slt 0#32)) (IntOp.addi v n) v = v
  rw [hs]
  exact ValueIdx.select_zero _ _

/-- An index word in [0, 20000) is not moved by the gather's clamp. -/
theorem clampIdx_val (v : BitVec 32) (h0 : 0 ≤ v.toInt) (h1 : v.toInt < 20000) : (clampIdx v).val = v.toInt.toNat := by
  show min v.toInt.toNat 19999 = v.toInt.toNat
  omega

/-- The embedding of the reals in the extended reals carries a finite sum to the sum of the embedded terms. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The batch row padded with zeros past column 19999, read at any column number. -/
def padRow (xr : Fin 20000 → ℝ) (k : ℕ) : ℝ := if h : k < 20000 then xr ⟨k, h⟩ else 0

/-- The regrouping law over the reals. Each edge of `S` reads one column `c < 20000`, which lies in exactly one block
    `c / 2560` at offset `c % 2560`; so the edges of `S` split into the fibres of (block, offset), the fibre of
    `(j, kk)` being the edges that read column `2560 j + kk`, and on that fibre the row's entry is a common factor. -/
theorem regroup_real (xr : Fin 20000 → ℝ) (wr : Fin 500000 → ℝ) (ie : Fin 500000 → Fin 20000) (S : Finset (Fin 500000)) :
    (∑ j : Fin 8, ∑ kk : Fin 2560,
      padRow xr (2560 * j.val + kk.val) * ∑ e ∈ S.filter (fun e => (ie e).val = 2560 * j.val + kk.val), wr e)
      = ∑ e ∈ S, xr (ie e) * wr e := by
  let g : Fin 500000 → Fin 8 × Fin 2560 := fun e =>
    (⟨(ie e).val / 2560, by have := (ie e).isLt; omega⟩, ⟨(ie e).val % 2560, by omega⟩)
  rw [← Finset.sum_fiberwise S g (fun e => xr (ie e) * wr e), Fintype.sum_prod_type]
  refine Finset.sum_congr rfl fun j _ => Finset.sum_congr rfl fun kk _ => ?_
  have hfib : S.filter (fun e => g e = (j, kk)) = S.filter (fun e => (ie e).val = 2560 * j.val + kk.val) := by
    refine Finset.filter_congr fun e _ => ?_
    simp only [g, Prod.mk.injEq, Fin.ext_iff]
    have := (ie e).isLt; have := kk.isLt; omega
  rw [hfib, Finset.mul_sum]
  refine Finset.sum_congr rfl fun e he => ?_
  have hk : (ie e).val = 2560 * j.val + kk.val := (Finset.mem_filter.mp he).2
  have hlt : 2560 * j.val + kk.val < 20000 := hk ▸ (ie e).isLt
  rw [padRow, dif_pos hlt]
  exact congrArg (fun c => xr c * wr e) (Fin.ext hk.symm)

/-- The law that joins the two programs, for one batch row and one output column. `S` is the set of edges that land on
    the column, `ie e` edge `e`'s input column, `wr e` its weight, `xr` the batch row. On the left the dense product,
    eight blocks of 2560 columns each over the row padded with zeros to 20480 columns, a dense entry being the sum of
    the weights of the edges of `S` that read that column; on the right the edge-by-edge sum. All values are real, so
    a factor distributes over a sum. -/
theorem regroup (xr : Fin 20000 → ℝ) (wr : Fin 500000 → ℝ) (ie : Fin 500000 → Fin 20000) (S : Finset (Fin 500000)) :
    (∑ j : Fin 8, ∑ kk : Fin 2560,
      (if h : 2560 * j.val + kk.val < 20000 then ((xr ⟨2560 * j.val + kk.val, h⟩ : ℝ) : EReal) else 0)
        * (∑ e ∈ S.filter (fun e => (ie e).val = 2560 * j.val + kk.val), ((wr e : ℝ) : EReal)))
      = ∑ e ∈ S, ((xr (ie e) : ℝ) : EReal) * ((wr e : ℝ) : EReal) := by
  -- each term on the left is the embedding of a product of reals
  have hterm : ∀ (j : Fin 8) (kk : Fin 2560),
      (if h : 2560 * j.val + kk.val < 20000 then ((xr ⟨2560 * j.val + kk.val, h⟩ : ℝ) : EReal) else 0)
        * (∑ e ∈ S.filter (fun e => (ie e).val = 2560 * j.val + kk.val), ((wr e : ℝ) : EReal))
      = ((padRow xr (2560 * j.val + kk.val)
          * ∑ e ∈ S.filter (fun e => (ie e).val = 2560 * j.val + kk.val), wr e : ℝ) : EReal) := by
    intro j kk
    rw [EReal.coe_mul, coe_sum]
    congr 1
    unfold padRow
    split_ifs
    · rfl
    · exact EReal.coe_zero.symm
  -- so both sides are embeddings of real sums, and over the reals the law is regroup_real
  calc _ = ∑ j : Fin 8, ∑ kk : Fin 2560, ((padRow xr (2560 * j.val + kk.val)
            * ∑ e ∈ S.filter (fun e => (ie e).val = 2560 * j.val + kk.val), wr e : ℝ) : EReal) :=
        Finset.sum_congr rfl fun j _ => Finset.sum_congr rfl fun kk _ => hterm j kk
    _ = ((∑ j : Fin 8, ∑ kk : Fin 2560, padRow xr (2560 * j.val + kk.val)
            * ∑ e ∈ S.filter (fun e => (ie e).val = 2560 * j.val + kk.val), wr e : ℝ) : EReal) := by
        rw [coe_sum]
        exact Finset.sum_congr rfl fun j _ => (coe_sum _ _).symm
    _ = ((∑ e ∈ S, xr (ie e) * wr e : ℝ) : EReal) := by rw [regroup_real]
    _ = _ := by
        rw [coe_sum]
        exact Finset.sum_congr rfl fun e _ => EReal.coe_mul _ _

end Cert.Spec

end
-- ==== Proof.Bridge.lean ====
/-
  The two programs' results are one function of the arguments, index by index, on the precondition's domain. Stated
  over arrays given by what they hold at an index; no program is imported here.
-/
import proofs.«417313_j45011257262636_2_alg».proof.Proof.Terms
import proofs.«417313_j45011257262636_2_alg».proof.Proof.Cols
import proofs.«417313_j45011257262636_2_alg».proof.Proof.Spec
import proofs.«417313_j45011257262636_2_alg».proof.Proof.PreFacts

noncomputable section

namespace Cert.Bridge

open Idealize.ShloMosaic Idealize.ShloMosaic.ValueIdx Cert.Terms Cert.Cols Cert.PreFacts

/-- At batch row `b` and output column `o`: the kernel's value — SELU (the kernel's spelling) of the dense product of the
    padded row of `x` with the dense weights' column, summed step by step, plus the padded bias — is the reference's —
    SELU (the reference's spelling) of the edge-by-edge sum plus the bias —, given what the padded arrays `X`, `W`, `B`
    hold at an index and that the arguments lie in the precondition's domain. -/
theorem value_eq (x : FVec Ideal ⟨2, ![512, 20000]⟩ .f32) (w : FVec Ideal ⟨1, ![500000]⟩ .f32) (bias : FVec Ideal ⟨1, ![1000]⟩ .f32)
    (oi ii : IVec ⟨1, ![500000]⟩ 32)
    (X : (⟨2, ![512, 20480]⟩ : Shape).Idx → EReal) (W : (⟨2, ![20480, 1024]⟩ : Shape).Idx → EReal) (B : (⟨2, ![1, 1024]⟩ : Shape).Idx → EReal)
    (hd : Dom x w bias oi ii)
    (hW : ∀ (k : Fin 20480) (o : Fin 1024), W (ix2 k o)
        = ∑ e ∈ Finset.univ.filter (fun e : Fin 500000 =>
              (wrap 20480#32 (ii (ix1 e))).toInt = (k.val : ℤ) ∧ (wrap 1024#32 (oi (ix1 e))).toInt = (o.val : ℤ)), w (ix1 e))
    (hX : ∀ (b : Fin 512) (k : Fin 20480), X (ix2 b k) = if h : k.val < 20000 then x (ix2 b ⟨k.val, h⟩) else 0)
    (hB : ∀ o : Fin 1024, B (ix2 (0 : Fin 1) o) = if h : o.val < 1000 then bias (ix1 ⟨o.val, h⟩) else 0)
    (b : Fin 512) (o : Fin 1000) :
    actK ((∑ j : Fin 8, ∑ kk : Fin 2560, X (ix2 b (col j kk)) * W (ix2 (col j kk) (ocol o))) + B (ix2 (0 : Fin 1) (ocol o)))
      = actR ((∑ e ∈ Finset.univ.filter (fun e : Fin 500000 => (oi (ix1 e)).toInt = (o.val : ℤ)),
                x (ix2 b (clampIdx (wrap 20000#32 (ii (ix1 e))))) * w (ix1 e)) + bias (ix1 o)) := by
  -- SELU's two spellings agree, so it is enough that their arguments do
  rw [Spec.actR_eq_actK]
  refine congrArg actK ?_
  -- every entry of x and of the weights is a real number
  choose xr hxr using hd.x_real
  choose wr hwr using hd.w_real
  -- S: the edges that land on output column o; ie e: edge e's input column, its index word read as a number
  set S : Finset (Fin 500000) := Finset.univ.filter (fun e : Fin 500000 => (oi (ix1 e)).toInt = (o.val : ℤ)) with hS
  let ie : Fin 500000 → Fin 20000 := fun e =>
    ⟨(ii (ix1 e)).toInt.toNat, by have := hd.ii_lo (ix1 e); have := hd.ii_hi (ix1 e); omega⟩
  -- the padded bias at a column below 1000 is the bias
  have hB' : B (ix2 (0 : Fin 1) (ocol o)) = bias (ix1 o) := by
    rw [hB, dif_pos (show (ocol o).val < 1000 from o.isLt)]; rfl
  -- a dense weight entry of column o: both index words are non-negative, hence read as themselves, so the entry at
  -- row 2560 j + kk sums the weights of the edges of S whose input column is that row
  have hfilt : ∀ (j : Fin 8) (kk : Fin 2560),
      Finset.univ.filter (fun e : Fin 500000 =>
          (wrap 20480#32 (ii (ix1 e))).toInt = ((col j kk).val : ℤ) ∧ (wrap 1024#32 (oi (ix1 e))).toInt = ((ocol o).val : ℤ))
        = S.filter (fun e => (ie e).val = 2560 * j.val + kk.val) := by
    intro j kk
    ext e
    simp only [hS, ie, Finset.mem_filter, Finset.mem_univ, true_and]
    rw [Spec.wrap_of_nonneg _ _ (hd.ii_lo _), Spec.wrap_of_nonneg _ _ (hd.oi_lo _)]
    have := hd.ii_lo (ix1 e)
    show (ii (ix1 e)).toInt = ((2560 * j.val + kk.val : ℕ) : ℤ) ∧ (oi (ix1 e)).toInt = ((o.val : ℕ) : ℤ) ↔ _
    omega
  have hL : ∀ (j : Fin 8) (kk : Fin 2560), X (ix2 b (col j kk)) * W (ix2 (col j kk) (ocol o))
      = (if h : 2560 * j.val + kk.val < 20000 then ((xr (ix2 b ⟨2560 * j.val + kk.val, h⟩) : ℝ) : EReal) else 0)
        * ∑ e ∈ S.filter (fun e => (ie e).val = 2560 * j.val + kk.val), ((wr (ix1 e) : ℝ) : EReal) := by
    intro j kk
    rw [hX, hW, hfilt]
    refine congrArg₂ (· * ·) ?_ ?_
    · show (if h : 2560 * j.val + kk.val < 20000 then x (ix2 b ⟨2560 * j.val + kk.val, h⟩) else 0) = _
      split_ifs with h
      · exact hxr _
      · rfl
    · exact Finset.sum_congr rfl fun e _ => hwr _
  -- an edge's gathered entry of x: the index word is in [0, 20000), so neither the wrap nor the clamp moves it
  have hR : ∀ e ∈ S, x (ix2 b (clampIdx (wrap 20000#32 (ii (ix1 e))))) * w (ix1 e)
      = ((xr (ix2 b (ie e)) : ℝ) : EReal) * ((wr (ix1 e) : ℝ) : EReal) := by
    intro e _
    rw [Spec.wrap_of_nonneg _ _ (hd.ii_lo _)]
    have hc : clampIdx (ii (ix1 e)) = ie e := Fin.ext (Spec.clampIdx_val _ (hd.ii_lo _) (hd.ii_hi _))
    rw [hc, hxr, hwr]
  have hsumL : (∑ j : Fin 8, ∑ kk : Fin 2560, X (ix2 b (col j kk)) * W (ix2 (col j kk) (ocol o)))
      = ∑ j : Fin 8, ∑ kk : Fin 2560,
          (if h : 2560 * j.val + kk.val < 20000 then ((xr (ix2 b ⟨2560 * j.val + kk.val, h⟩) : ℝ) : EReal) else 0)
            * ∑ e ∈ S.filter (fun e => (ie e).val = 2560 * j.val + kk.val), ((wr (ix1 e) : ℝ) : EReal) :=
    Finset.sum_congr rfl fun j _ => Finset.sum_congr rfl fun kk _ => hL j kk
  rw [hsumL, hB', Finset.sum_congr rfl hR]
  -- the dense product regrouped edge by edge
  exact congrArg (· + bias (ix1 o)) (Spec.regroup (fun c => xr (ix2 b c)) (fun e => wr (ix1 e)) ie S)

end Cert.Bridge

end
-- ==== Proof.KernelHost.lean ====
/-
  The three arrays the kernel's region finds, each read at an index as a function of the arguments.

  Each array is first written as the term the host operations before the region compute from the arguments (the
  lemmas `Warr_term`, `Xarr_term`, `Barr_term`); the term is then read at an index by small lemmas stated over
  variables of the literal vector types: a pad by zeros behind the entries, two index columns set side by side, and
  the accumulating scatter over both axes of its operand, whose sum over update indices is re-indexed to a sum over
  edge numbers.
-/
import proofs.«417313_j45011257262636_2_alg».proof.Defs
import proofs.«417313_j45011257262636_2_alg».proof.Proof.Gen.KernelIdeal.Frame
import proofs.«417313_j45011257262636_2_alg».proof.Proof.Terms
import Idealize.ShloMosaic.Lib.StableHlo.Run
import Idealize.ShloMosaic.Lib.ValueIdx
import Idealize.ShloMosaic.Lib.ValueIdxRank1
import Idealize.ShloMosaic.Lib.Pipeline.Value
import Idealize.ShloMosaic.Lib.KernelVsHost
import Idealize.ShloMosaic.PureOps.Ideal.Laws

noncomputable section

namespace Cert.KernelIdeal.HostVal

open Idealize.ShloMosaic Idealize.ShloMosaic.TcCoe Idealize.SL.Sem Idealize.ShloMosaic.ValueIdx
open Cert.KernelIdeal Cert.KernelIdeal.Gen Cert.Terms

variable (m : (ℓ : Loc nD τ sig) → Buf (Elt Ideal) ℓ)

/-- The arguments, at their literal types. -/
abbrev xin (c : Dev nD) : FVec Ideal S512x20000 .f32 := m ((c : Thread nD τ).loc main_arg0)
abbrev win (c : Dev nD) : FVec Ideal S500000 .f32 := m ((c : Thread nD τ).loc main_arg1)
abbrev bin (c : Dev nD) : FVec Ideal S1000 .f32 := m ((c : Thread nD τ).loc main_arg2)
abbrev oin (c : Dev nD) : IVec S500000 32 := m ((c : Thread nD τ).loc main_arg3)
abbrev iin (c : Dev nD) : IVec S500000 32 := m ((c : Thread nD τ).loc main_arg4)

/-- The arrays the region's three input windows stage, as the region finds them: the dense weights, the padded `x`, the padded bias row. -/
abbrev Warr (c : Dev nD) : FVec Ideal S20480x1024 .bf16 := V m c main_v15
abbrev Xarr (c : Dev nD) : FVec Ideal S512x20480 .bf16 := V m c main_v17
abbrev Barr (c : Dev nD) : FVec Ideal S1x1024 .f32 := V m c main_v19

/-! ## A pad behind the entries, read at an index -/

/-- A vector of `n` entries padded behind them to `N` lanes: lane `o` holds entry `o` when `o < n`, the padding
    value otherwise. -/
theorem pad_row_read {n N p : Nat} (x : (⟨1, ![n]⟩ : Shape).Idx → EReal) (v : S_.Idx → EReal)
    (hp : (⟨1, ![n]⟩ : Shape).Pads (![0] : Fin 1 → Nat) ![p] ![0] ⟨1, ![N]⟩) (hu : 0 < S_.numel) (o : Fin N) :
    pad (⟨1, ![N]⟩ : Shape) ![0] ![p] ![0] x v hp hu (ix1 o)
      = if h : o.val < n then x (ix1 ⟨o.val, h⟩) else v ix0 := by
  by_cases h : o.val < n
  · rw [dif_pos h]
    refine pad_apply_of_inside _ _ _ x v hp hu _ (ix1 ⟨o.val, h⟩) (fun a => ?_)
    fin_cases a
    simp
  · rw [dif_neg h]
    rw [pad_apply_of_not_inside _ _ _ x v hp hu _ (0 : Fin 1) (by
      intro hh
      have := hh.2.2
      simp at this
      exact h this)]
    exact congrArg v (eq_ix0 _)

/-- A matrix of `n` columns padded behind them to `N` columns: column `k` of a row holds the row's entry `k` when
    `k < n`, the padding value otherwise. -/
theorem pad_cols_read {r n N p : Nat} (x : (⟨2, ![r, n]⟩ : Shape).Idx → EReal) (v : S_.Idx → EReal)
    (hp : (⟨2, ![r, n]⟩ : Shape).Pads (![0, 0] : Fin 2 → Nat) ![0, p] ![0, 0] ⟨2, ![r, N]⟩) (hu : 0 < S_.numel)
    (b : Fin r) (k : Fin N) :
    pad (⟨2, ![r, N]⟩ : Shape) ![0, 0] ![0, p] ![0, 0] x v hp hu (ix2 b k)
      = if h : k.val < n then x (ix2 b ⟨k.val, h⟩) else v ix0 := by
  by_cases h : k.val < n
  · rw [dif_pos h]
    refine pad_apply_of_inside _ _ _ x v hp hu _ (ix2 b ⟨k.val, h⟩) (fun a => ?_)
    fin_cases a <;> simp
  · rw [dif_neg h]
    rw [pad_apply_of_not_inside _ _ _ x v hp hu _ (1 : Fin 2) (by
      intro hh
      have := hh.2.2
      simp at this
      exact h this)]
    exact congrArg v (eq_ix0 _)

/-- The padding value of both pads: the integer zero converted to a float is the real zero. -/
theorem pad_value : (sitofp (F := Ideal) .f32 (constantI S_ 32 0#32) : S_.Idx → EReal) ix0 = 0 := by
  show ((((0#32 : BitVec 32).toInt : ℝ)) : EReal) = 0
  simp

/-! ## The scatter's dimension numbers: both operand axes scattered, no window -/

/-- The dimension numbers of the scatter that builds the dense weights. -/
abbrev idxDims := scatter_S20480x1024_S500000x2_S500000_n_01_01_1

/-- No operand axis is a window axis: the window coordinate is `0` on both. -/
theorem idxDims_window (j : S500000.Idx) (a : Fin 2) : idxDims.window j a = 0 := by
  unfold ScatterDims.window
  rw [dif_neg]
  fin_cases a <;> decide

/-- Update `j` reads component `c` of its start index in row `j`, column `c` of the index array. -/
theorem idxDims_siIdx (j : S500000.Idx) (c : Fin idxDims.scatterDimsToOperandDims.length) :
    idxDims.siIdx j c = ix2 (j 0) (⟨c.val, c.isLt⟩ : Fin 2) := by
  funext b
  fin_cases b
  · show (if hb : (0 : Fin 2).val = idxDims.indexVectorDim then _ else _) = _
    rw [dif_neg (by decide)]
    rfl
  · show (if hb : (1 : Fin 2).val = idxDims.indexVectorDim then _ else _) = _
    rw [dif_pos (by decide)]
    rfl

/-- The start on operand axis `a` is the word in row `j`, column `a`, read signed. -/
theorem idxDims_start (j : S500000.Idx) (idx : IVec S500000x2 32) (a : Fin 2) :
    idxDims.start j idx a = (idx (ix2 (j 0) a)).toInt := by
  unfold ScatterDims.start
  fin_cases a
  · rw [dif_pos (by decide)]
    rw [idxDims_siIdx]
    rfl
  · rw [dif_pos (by decide)]
    rw [idxDims_siIdx]
    rfl

/-- Update `j` lands on entry `(k, o)` exactly when its two index words, read signed, are `k` and `o`. -/
theorem idxDims_resultIdx (j : S500000.Idx) (idx : IVec S500000x2 32) (k : Fin 20480) (o : Fin 1024) :
    idxDims.resultIdx? j idx = some (ix2 k o) ↔
      (idx (ix2 (j 0) 0)).toInt = (k.val : ℤ) ∧ (idx (ix2 (j 0) 1)).toInt = (o.val : ℤ) := by
  have hs0 : S20480x1024.size 0 = 20480 := rfl
  have hs1 : S20480x1024.size 1 = 1024 := rfl
  unfold ScatterDims.resultIdx?
  constructor
  · intro h
    split at h
    · rename_i hh
      have e := Option.some.inj h
      have e0 := congrArg (fun f => (f 0).val) e
      have e1 := congrArg (fun f => (f 1).val) e
      have h0 := (hh 0).1
      have h1 := (hh 1).1
      simp only [idxDims_start, idxDims_window, Nat.cast_zero, add_zero] at e0 e1 h0 h1
      change _ = k.val at e0
      change _ = o.val at e1
      constructor <;> omega
    · cases h
  · rintro ⟨h0, h1⟩
    have hh : ∀ a, 0 ≤ idxDims.start j idx a + idxDims.window j a
        ∧ idxDims.start j idx a + idxDims.window j a < S20480x1024.size a := by
      rw [Fin.forall_fin_two, hs0, hs1]
      simp only [idxDims_start, idxDims_window, Nat.cast_zero, add_zero, h0, h1]
      have := k.isLt
      have := o.isLt
      omega
    rw [dif_pos hh]
    refine congrArg some (funext fun a => ?_)
    revert a
    rw [Fin.forall_fin_two]
    constructor
    · apply Fin.ext
      simp only [idxDims_start, idxDims_window, Nat.cast_zero, add_zero, h0, Int.toNat_natCast]
    · apply Fin.ext
      simp only [idxDims_start, idxDims_window, Nat.cast_zero, add_zero, h1, Int.toNat_natCast]

/-- The accumulating scatter over both axes of the operand, read at an entry: the operand's entry plus the updates of
    the index rows that name the entry, the sum taken over edge numbers. -/
theorem scatterAdd_read (x0 : FVec Ideal S20480x1024 .f32) (idx : IVec S500000x2 32) (u : FVec Ideal S500000 .f32)
    (k : Fin 20480) (o : Fin 1024) :
    Host.scatterAdd idxDims x0 idx u (ix2 k o)
      = x0 (ix2 k o) + ∑ e ∈ Finset.univ.filter (fun e : Fin 500000 =>
          (idx (ix2 e 0)).toInt = (k.val : ℤ) ∧ (idx (ix2 e 1)).toInt = (o.val : ℤ)), u (ix1 e) := by
  unfold Host.scatterAdd
  rw [Ideal.hostScatterAdd_def]
  unfold Ideal.hostScatterAdd
  refine congrArg (fun t => x0 (ix2 k o) + t) ?_
  rw [Finset.sum_filter, Finset.sum_filter]
  rw [← Equiv.sum_comp (idxEquiv1 (n := 500000)).symm]
  refine Finset.sum_congr rfl (fun e _ => ?_)
  show (if idxDims.resultIdx? (ix1 e) idx = some (ix2 k o) then u (ix1 e) else 0) = _
  simp only [idxDims_resultIdx]

/-! ## The index array: two columns of normalised words side by side -/

/-- Two index vectors, each made a column, set side by side: row `e`, column `0` is the first vector's word `e`. -/
theorem cols_read_left (a b : IVec S500000 32)
    (hb : S500000.BroadcastsInDim S500000x1 (![0] : Fin 1 → Fin S500000x1.rank))
    (hc : Shape.Concatenates [S500000x1, S500000x1] S500000x2 1) (e : Fin 500000) :
    concatenate S500000x2 1 [⟨S500000x1, broadcastInDim S500000x1 ![0] hb a⟩, ⟨S500000x1, broadcastInDim S500000x1 ![0] hb b⟩] hc
      (ix2 e (0 : Fin 2)) = a (ix1 e) := by
  rw [concatenate_pair_apply_left (t := S500000x2) (s₁ := S500000x1) (s₂ := S500000x1) (1 : Fin 2) _ _ hc
    (ix2 e (0 : Fin 2)) rfl (i := (ix2 e (0 : Fin 1) : S500000x1.Idx)) (by
    intro d; fin_cases d <;> rfl)]
  refine broadcastInDim_apply _ hb a _ (ix1 e) (fun d => ?_)
  fin_cases d
  simp

/-- Row `e`, column `1` is the second vector's word `e`. -/
theorem cols_read_right (a b : IVec S500000 32)
    (hb : S500000.BroadcastsInDim S500000x1 (![0] : Fin 1 → Fin S500000x1.rank))
    (hc : Shape.Concatenates [S500000x1, S500000x1] S500000x2 1) (e : Fin 500000) :
    concatenate S500000x2 1 [⟨S500000x1, broadcastInDim S500000x1 ![0] hb a⟩, ⟨S500000x1, broadcastInDim S500000x1 ![0] hb b⟩] hc
      (ix2 e (1 : Fin 2)) = b (ix1 e) := by
  rw [concatenate_pair_apply_right (t := S500000x2) (s₁ := S500000x1) (s₂ := S500000x1) (1 : Fin 2) _ _ hc
    (ix2 e (1 : Fin 2)) rfl rfl (i := (ix2 e (0 : Fin 1) : S500000x1.Idx)) (by
    intro d; fin_cases d
    · intro _; rfl
    · intro h; exact absurd rfl h) (by rfl)]
  refine broadcastInDim_apply _ hb b _ (ix1 e) (fun d => ?_)
  fin_cases d
  simp

/-- The index words of an axis of extent `n` as the host normalises them: compared with `0`, the extent added to the
    negative ones. -/
abbrev wrapWords (n : BitVec 32) (v : IVec S500000 32) : IVec S500000 32 :=
  select (cmpi .slt v (broadcastInDim S500000 ![] bcast_S_S500000 (constantI S_ 32 0#32)))
    (addi v (broadcastInDim S500000 ![] bcast_S_S500000 (constantI S_ 32 n))) v

/-- Word by word it is `wrap n`. -/
theorem wrapWords_apply (n : BitVec 32) (v : IVec S500000 32) (e : Fin 500000) :
    wrapWords n v (ix1 e) = wrap n (v (ix1 e)) := rfl

/-! ## The three arrays as terms of the arguments -/

/-- The dense weights: the scatter of the edge weights into a zero matrix at the normalised index pairs, narrowed to
    bf16. -/
theorem Warr_term (c : Dev nD) :
    (Warr m c : S20480x1024.Idx → EReal) =
      truncf .bf16 (Host.scatterAdd scatter_S20480x1024_S500000x2_S500000_n_01_01_1
        (broadcastInDim S20480x1024 ![] bcast_S_S20480x1024 (constant (F := Ideal) S_ .f32 0x00000000#32))
        (concatenate S500000x2 1
          [⟨S500000x1, broadcastInDim S500000x1 ![0] bcast_S500000_S500000x1_0 (wrapWords 20480#32 (iin m c))⟩,
           ⟨S500000x1, broadcastInDim S500000x1 ![0] bcast_S500000_S500000x1_0 (wrapWords 1024#32 (oin m c))⟩]
          concatenates_S500000x1_S500000x1_S500000x2_d1)
        (win m c)) bitsLt_bf16_f32 := by
  dsimp only [Warr, Gen.V, Gen.V0]
  simp only [Gen.hostOps0, Gen.hostOps0_1, Gen.hostOps0_2, Gen.hostOps0_3, Gen.hostOps0_4, List.flatten_cons, List.flatten_nil, List.append_nil, List.cons_append, List.nil_append]
  after_results_simp
  rfl

/-- The padded `x`: `x` padded by the converted integer zero behind its columns, narrowed to bf16. -/
theorem Xarr_term (c : Dev nD) :
    (Xarr m c : S512x20480.Idx → EReal) =
      truncf .bf16 (pad S512x20480 ![0, 0] ![0, 480] ![0, 0] (xin m c) (sitofp (F := Ideal) .f32 (constantI S_ 32 0#32))
        pads_S512x20000_S512x20480_000_04800 h_S_) bitsLt_bf16_f32 := by
  dsimp only [Xarr, Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The padded bias row: the bias padded by the converted integer zero behind its entries, reshaped to one row. -/
theorem Barr_term (c : Dev nD) :
    (Barr m c : S1x1024.Idx → EReal) =
      shapeCast S1x1024 (pad S1024 ![0] ![24] ![0] (bin m c) (sitofp (F := Ideal) .f32 (constantI S_ 32 0#32))
        pads_S1000_S1024_0240 h_S_) shapeCasts_S1024_S1x1024 := by
  dsimp only [Barr, Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-! ## The three arrays read at an index -/

/-- A dense weight: the sum of the weights of the edges whose two index words, read on axes of extents 20480 and 1024, are its row and column. -/
theorem Warr_apply (c : Dev nD) (k : Fin 20480) (o : Fin 1024) :
    Warr m c (ix2 k o)
      = ∑ e ∈ Finset.univ.filter (fun e : Fin 500000 =>
            (wrap 20480#32 (iin m c (ix1 e))).toInt = (k.val : ℤ) ∧ (wrap 1024#32 (oin m c (ix1 e))).toInt = (o.val : ℤ)),
          win m c (ix1 e) := by
  have z : broadcastInDim S20480x1024 ![] bcast_S_S20480x1024 (constant (F := Ideal) S_ .f32 0x00000000#32) (ix2 k o)
      = (0 : EReal) := by
    show Ideal.ofBits .f32 0x00000000#32 = 0
    exact Ideal.ofBits_zero_f32
  rw [Warr_term, truncf_apply, scatterAdd_read, z, zero_add]
  refine Finset.sum_congr (Finset.filter_congr (fun e _ => ?_)) (fun _ _ => rfl)
  rw [cols_read_left, cols_read_right, wrapWords_apply, wrapWords_apply]

/-- The padded `x`: `x` on its 20000 columns, zero on the 480 behind them. -/
theorem Xarr_apply (c : Dev nD) (b : Fin 512) (k : Fin 20480) :
    Xarr m c (ix2 b k) = if h : k.val < 20000 then xin m c (ix2 b ⟨k.val, h⟩) else 0 := by
  rw [Xarr_term, truncf_apply, pad_cols_read]
  exact dite_congr rfl (fun _ => rfl) (fun _ => pad_value)

/-- The padded bias row: the bias on its 1000 columns, zero on the 24 behind them. -/
theorem Barr_apply (c : Dev nD) (o : Fin 1024) :
    Barr m c (ix2 (0 : Fin 1) o) = if h : o.val < 1000 then bin m c (ix1 ⟨o.val, h⟩) else 0 := by
  rw [Barr_term]
  rw [shapeCast_apply _ _ _ (ix1 o) (by rw [Shape.rowMajor_val_one, Shape.rowMajor_val_two]; simp)]
  rw [pad_row_read]
  exact dite_congr rfl (fun _ => rfl) (fun _ => pad_value)

end Cert.KernelIdeal.HostVal

end
-- ==== Proof.KernelPieces.lean ====
/-
  What each of the body's three cases leaves in the output block, as a value of the blocks it read.

  The body keeps a running block in the output's staging buffer across the eight reduction steps of one batch half:
  at the first step it stores zeros, reads them back and adds the step's product; at a middle step it adds the step's
  product to what the step before left; at the last step it does the same and then replaces the block by SELU of the
  block plus the bias row.
-/
import proofs.«417313_j45011257262636_2_alg».proof.Proof.Gen.KernelIdeal.Frame
import Idealize.ShloMosaic.Lib.Pipeline.Value
import Idealize.ShloMosaic.Lib.Tactic

noncomputable section

namespace Cert.KernelIdeal.KValue

open Idealize.ShloMosaic Idealize.ShloMosaic.TcCoe Idealize.SL.Sem
open Idealize.ShloMosaic.Pipeline (Dat)
open Cert.KernelIdeal Cert.KernelIdeal.Gen

variable {F : FTy → Type} [FloatOps F]

theorem hz : (![0, 0] : Fin 2 → Nat) = fun _ => 0 := funext fun a => by fin_cases a <;> rfl

/-- A middle step: the block the step before left, plus this step's product. -/
theorem out_B (c : Dev nD) (i : grid0.Coords) (a2 : Memref sig .tc .vmem S256x2560 .bf16) (h2 : a2.IsWhole)
    (a3 : Memref sig .tc .vmem S2560x1024 .bf16) (h3 : a3.IsWhole) (a4 : Memref sig .tc .vmem S1x1024 .f32) (h4 : a4.IsWhole)
    (a5 : Memref sig .tc .vmem S256x1024 .f32) (h5 : a5.IsWhole) (hc0 : ¬cond0_0 i) (hc1 : ¬cond0_1 i)
    (x0 : Vec F S256x2560 .bf16) (x1 : Vec F S2560x1024 .bf16) (x2 : Vec F S1x1024 .f32) (xo : Vec F S256x1024 .f32) :
    out0_B_3 c i a2 h2 a3 h3 a4 h4 a5 h5 hc0 hc1 x0 x1 x2 xo = k0_pay2 xo x0 x1 := by
  unfold out0_B_3
  rw [View.read_writes_eq_canon _ _ _ (cover0_B_3 c i a2 h2 a3 h3 a4 h4 a5 h5 hc0 hc1 x0 x1 x2 xo)]
  unfold kernelRun0_B
  dsimp only
  sl_unfold_words
  rw [View.canon_unit_zero hz]
  simp only [View.readAt_eq_ld, h2.read_unread, h3.read_unread, h4.read_unread, h5.read_unread,
    View.ld_unit_zero (S := S256x1024) hz, View.ld_unit_zero (S := S256x2560) hz, View.ld_unit_zero (S := S2560x1024) hz]

/-- The first step: zeros are stored and read back, and this step's product is added to them. -/
theorem out_A (c : Dev nD) (i : grid0.Coords) (a2 : Memref sig .tc .vmem S256x2560 .bf16) (h2 : a2.IsWhole)
    (a3 : Memref sig .tc .vmem S2560x1024 .bf16) (h3 : a3.IsWhole) (a4 : Memref sig .tc .vmem S1x1024 .f32) (h4 : a4.IsWhole)
    (a5 : Memref sig .tc .vmem S256x1024 .f32) (h5 : a5.IsWhole) (hc0 : cond0_0 i) (hc1 : ¬cond0_1 i)
    (x0 : Vec F S256x2560 .bf16) (x1 : Vec F S2560x1024 .bf16) (x2 : Vec F S1x1024 .f32) :
    out0_A_3 c i a2 h2 a3 h3 a4 h4 a5 h5 hc0 hc1 x0 x1 x2 = k0_pay2 (k0_pay1 (F := F)) x0 x1 := by
  unfold out0_A_3
  rw [View.read_writes_eq_canon _ _ _ (cover0_A_3 c i a2 h2 a3 h3 a4 h4 a5 h5 hc0 hc1 x0 x1 x2)]
  unfold kernelRun0_A
  dsimp only
  sl_unfold_words
  rw [View.canon_cons_unit_zero (S := S256x1024) hz, View.readCov_unit_zero (S := S256x1024) _ hz]
  simp only [View.readAt_eq_ld, h2.read_unread, h3.read_unread, h4.read_unread, h5.read_unread,
    View.ld_unit_zero (S := S256x1024) hz, View.ld_unit_zero (S := S256x2560) hz, View.ld_unit_zero (S := S2560x1024) hz]

/-- The last step: the running block plus this step's product is stored and read back, and SELU of it plus the bias row replaces it. -/
theorem out_C (c : Dev nD) (i : grid0.Coords) (a2 : Memref sig .tc .vmem S256x2560 .bf16) (h2 : a2.IsWhole)
    (a3 : Memref sig .tc .vmem S2560x1024 .bf16) (h3 : a3.IsWhole) (a4 : Memref sig .tc .vmem S1x1024 .f32) (h4 : a4.IsWhole)
    (a5 : Memref sig .tc .vmem S256x1024 .f32) (h5 : a5.IsWhole) (hc0 : ¬cond0_0 i) (hc1 : cond0_1 i)
    (x0 : Vec F S256x2560 .bf16) (x1 : Vec F S2560x1024 .bf16) (x2 : Vec F S1x1024 .f32) (xo : Vec F S256x1024 .f32) :
    out0_C_3 c i a2 h2 a3 h3 a4 h4 a5 h5 hc0 hc1 x0 x1 x2 xo = k0_pay3 (k0_pay2 xo x0 x1) x2 := by
  unfold out0_C_3
  rw [View.read_writes_eq_canon _ _ _ (cover0_C_3 c i a2 h2 a3 h3 a4 h4 a5 h5 hc0 hc1 x0 x1 x2 xo)]
  unfold kernelRun0_C
  dsimp only
  sl_unfold_words
  rw [View.canon_cons_unit_zero (S := S256x1024) hz, View.readCov_unit_zero (S := S256x1024) _ hz]
  simp only [View.readAt_eq_ld, h2.read_unread, h3.read_unread, h4.read_unread, h5.read_unread,
    View.ld_unit_zero (S := S256x1024) hz, View.ld_unit_zero (S := S256x2560) hz, View.ld_unit_zero (S := S2560x1024) hz,
    View.ld_unit_zero (S := S1x1024) hz]

end Cert.KernelIdeal.KValue

end
-- ==== Proof.KernelAcc.lean ====
/-
  The running block, point by point, and the payloads read at an index over the extended reals.

  Within one batch half the eight reduction steps leave, in the output's staging buffer, the partial sums of the
  steps' products; the eighth step then replaces the block by SELU of the full sum plus the bias row.
-/
import proofs.«417313_j45011257262636_2_alg».proof.Proof.KernelPieces
import proofs.«417313_j45011257262636_2_alg».proof.Proof.Terms
import proofs.«417313_j45011257262636_2_alg».proof.Proof.Cols
import Idealize.ShloMosaic.Lib.ValueIdx
import Idealize.ShloMosaic.Lib.ValueLayout
import Idealize.ShloMosaic.PureOps.Ideal.Laws

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.Terms Cert.Cols

/-! ## The payloads at an index -/

/-- One step's product at row `p`, column `q`: the sum over the step's 2560 reduction columns. -/
theorem matmul_at (lhs : FVec Ideal S256x2560 .bf16) (rhs : FVec Ideal S2560x1024 .bf16) (p : Fin 256) (q : Fin 1024) :
    matmul dot_S256x2560_S2560x1024_S256x1024_1_0_0_1_n_n none lhs rhs (constant S256x1024 .f32 0x00000000#32) (ix2 p q)
      = ∑ kk : Fin 2560, lhs (ix2 p kk) * rhs (ix2 kk q) := by
  show FloatOps.matmul _ none lhs rhs _ (ix2 p q) = _
  rw [Ideal.matmul_constant_zero_apply,
    ← Equiv.sum_comp (contrEquiv1 dot_S256x2560_S2560x1024_S256x1024_1_0_0_1_n_n 2560 rfl rfl).symm]
  refine Finset.sum_congr rfl fun kk _ => ?_
  have c2 := contrEquiv1_symm_val dot_S256x2560_S2560x1024_S256x1024_1_0_0_1_n_n 2560 rfl rfl kk
  have l2 : dot_S256x2560_S2560x1024_S256x1024_1_0_0_1_n_n.lhsIdx (ix2 p q)
      ((contrEquiv1 dot_S256x2560_S2560x1024_S256x1024_1_0_0_1_n_n 2560 rfl rfl).symm kk) = ix2 p kk := by
    funext ax; apply Fin.ext
    match ax with
    | ⟨0, _⟩ => simp [DotDims.lhsIdx, dot_S256x2560_S2560x1024_S256x1024_1_0_0_1_n_n]; rfl
    | ⟨1, _⟩ => simp [DotDims.lhsIdx, dot_S256x2560_S2560x1024_S256x1024_1_0_0_1_n_n]; exact c2
  have r2 : dot_S256x2560_S2560x1024_S256x1024_1_0_0_1_n_n.rhsIdx (ix2 p q)
      ((contrEquiv1 dot_S256x2560_S2560x1024_S256x1024_1_0_0_1_n_n 2560 rfl rfl).symm kk) = ix2 kk q := by
    funext ax; apply Fin.ext
    match ax with
    | ⟨0, _⟩ => simp [DotDims.rhsIdx, dot_S256x2560_S2560x1024_S256x1024_1_0_0_1_n_n]; exact c2
    | ⟨1, _⟩ => simp [DotDims.rhsIdx, dot_S256x2560_S2560x1024_S256x1024_1_0_0_1_n_n]; rfl
  rw [l2, r2]

/-- The zero block is zero everywhere. -/
theorem pay1_at (i : S256x1024.Idx) : k0_pay1 (F := Ideal) i = 0 := by
  show Ideal.ofBits .f32 0x00000000#32 = 0
  exact Ideal.ofBits_zero_f32

/-- The accumulating store's value: the block read, plus the step's product. -/
theorem pay2_at (v3 : Vec Ideal S256x1024 .f32) (v5 : Vec Ideal S256x2560 .bf16) (v7 : Vec Ideal S2560x1024 .bf16)
    (p : Fin 256) (q : Fin 1024) :
    k0_pay2 v3 v5 v7 (ix2 p q) = v3 (ix2 p q) + ∑ kk : Fin 2560, v5 (ix2 p kk) * v7 (ix2 kk q) := by
  unfold k0_pay2
  simp only [shapeCast_self]
  exact congrArg (fun z => v3 (ix2 p q) + z) (matmul_at v5 v7 p q)

/-- The finishing store's value: SELU, in the kernel's spelling, of the block plus the bias row. -/
theorem pay3_at (v15 : Vec Ideal S256x1024 .f32) (v17 : Vec Ideal S1x1024 .f32) (p : Fin 256) (q : Fin 1024) :
    k0_pay3 v15 v17 (ix2 p q) = actK (v15 (ix2 p q) + v17 (ix2 (0 : Fin 1) q)) := by
  unfold k0_pay3
  simp only [shapeCast_self]
  have hb := broadcastTo_1b_ab_apply (α := EReal) (a := 256) (b := 1024) v17 broadcasts_S1x1024_S256x1024 p q
  unfold actK
  rw [← hb]
  rfl

/-! ## The running block, point by point (at any float instance) -/

section Running

variable {F : FTy → Type} [FloatOps F]
variable (m : (ℓ : Loc nD τ sig) → Buf (Elt F) ℓ)

/-- The partial sum after point `n`: a point that begins a batch half starts from zeros, any other adds its product to
    what the point before left. -/
def acc (c : Dev nD) : (n : ℕ) → n < cfg0.N → Vec F S256x1024 .f32
  | 0, h => k0_pay2 (k0_pay1 (F := F)) (iblk m c 0 ⟨0, h⟩) (iblk m c 1 ⟨0, h⟩)
  | n + 1, h =>
    if (n + 1) % 8 = 0 then k0_pay2 (k0_pay1 (F := F)) (iblk m c 0 ⟨n + 1, h⟩) (iblk m c 1 ⟨n + 1, h⟩)
    else k0_pay2 (acc c n (Nat.lt_of_succ_lt h)) (iblk m c 0 ⟨n + 1, h⟩) (iblk m c 1 ⟨n + 1, h⟩)

/-- What the output's staging buffer holds after point `n`: the partial sum, and at the last point of a batch half
    SELU of it plus the bias row. By induction on the point. -/
theorem outsAt_eq (c : Dev nD) : ∀ (n : ℕ) (h : n < cfg0.N),
    outsAt0 m c n h = if n % 8 = 7 then k0_pay3 (acc m c n h) (iblk m c 2 ⟨n, h⟩) else acc m c n h
  | 0, h => by
    rw [if_neg (by decide)]
    exact (outsAt0_A m c ⟨0, h⟩ rfl (by show ¬ (0 % 8 = 7); decide)).trans (out_A ..)
  | n + 1, h => by
    have hN : cfg0.N = 16 := N_0
    have ih := outsAt_eq c n (Nat.lt_of_succ_lt h)
    by_cases h0 : (n + 1) % 8 = 0
    · have h1 : ¬ (n + 1) % 8 = 7 := by omega
      rw [if_neg h1, outsAt0_A m c ⟨n + 1, h⟩ h0 h1, out_A]
      simp only [acc, if_pos h0]
    · have hprev : ¬ n % 8 = 7 := by omega
      rw [if_neg hprev] at ih
      by_cases h1 : (n + 1) % 8 = 7
      · rw [if_pos h1, outsAt0_C m c ⟨n + 1, h⟩ h0 h1, out_C]
        show k0_pay3 (k0_pay2 (outsAt0 m c n _) _ _) _ = _
        rw [ih]
        simp only [acc, if_neg h0]
      · rw [if_neg h1, outsAt0_B m c ⟨n + 1, h⟩ h0 h1, out_B]
        show k0_pay2 (outsAt0 m c n _) _ _ = _
        rw [ih]
        simp only [acc, if_neg h0]

end Running

/-! ## The windows' blocks and the partial sums, at an index, over the extended reals -/

section AtIndex

variable (m : (ℓ : Loc nD τ sig) → Buf (Elt Ideal) ℓ)

/-- The batch half and the reduction step of grid point `t`: the grid is 2 halves by 8 steps, the step running fastest. -/
def half (t : Fin cfg0.N) : Fin 2 := ⟨t.val / 8, by have := t.isLt; have hN : cfg0.N = 16 := N_0; omega⟩
def step (t : Fin cfg0.N) : Fin 8 := ⟨t.val % 8, by omega⟩

/-- The windows' block indices at point `t`: `x`'s block is (half, step), the weights' (step, 0), the bias row's (0, 0), the output's (half, 0). -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- The padded arrays the three input windows stage, at their literal types. -/
abbrev Xa (c : Dev nD) : S512x20480.Idx → EReal := V m c main_v17
abbrev Wa (c : Dev nD) : S20480x1024.Idx → EReal := V m c main_v15
abbrev Ba (c : Dev nD) : S1x1024.Idx → EReal := V m c main_v19

/-- `x`'s block at point `t` holds rows of the point's batch half and columns of the point's reduction step. -/
theorem iblk0_at (c : Dev nD) (t : Fin cfg0.N) (p : Fin 256) (kk : Fin 2560) :
    (iblk m c 0 t : S256x2560.Idx → EReal) (ix2 p kk) = Xa m c (ix2 (row (half t) p) (col (step t) kk)) := by
  unfold iblk
  rw [View.read_apply]
  show V m c main_v17 _ = V m c main_v17 _
  congr 1
  funext a
  apply Fin.ext
  match a with
  | ⟨0, _⟩ => show win0_0.index t 0 * 256 + 1 * p.val = 256 * (t.val / 8) + p.val; rw [(idx_facts t).1]; omega
  | ⟨1, _⟩ => show win0_0.index t 1 * 2560 + 1 * kk.val = 2560 * (t.val % 8) + kk.val; rw [(idx_facts t).2.1]; omega

/-- The weights' block at point `t` holds the rows of the point's reduction step, all columns. -/
theorem iblk1_at (c : Dev nD) (t : Fin cfg0.N) (kk : Fin 2560) (q : Fin 1024) :
    (iblk m c 1 t : S2560x1024.Idx → EReal) (ix2 kk q) = Wa m c (ix2 (col (step t) kk) q) := by
  unfold iblk
  rw [View.read_apply]
  show V m c main_v15 _ = V m c main_v15 _
  congr 1
  funext a
  apply Fin.ext
  match a with
  | ⟨0, _⟩ => show win0_1.index t 0 * 2560 + 1 * kk.val = 2560 * (t.val % 8) + kk.val; rw [(idx_facts t).2.2.1]; omega
  | ⟨1, _⟩ => show win0_1.index t 1 * 1024 + 1 * q.val = q.val; rw [(idx_facts t).2.2.2.1]; omega

/-- The bias row's block is the bias row, at every point. -/
theorem iblk2_at (c : Dev nD) (t : Fin cfg0.N) (q : Fin 1024) :
    (iblk m c 2 t : S1x1024.Idx → EReal) (ix2 (0 : Fin 1) q) = Ba m c (ix2 (0 : Fin 1) q) := by
  unfold iblk
  rw [View.read_apply]
  show V m c main_v19 _ = V m c main_v19 _
  congr 1
  funext a
  apply Fin.ext
  match a with
  | ⟨0, _⟩ => show win0_2.index t 0 * 1 + 1 * 0 = 0; rw [(idx_facts t).2.2.2.2.1]
  | ⟨1, _⟩ => show win0_2.index t 1 * 1024 + 1 * q.val = q.val; rw [(idx_facts t).2.2.2.2.2.1]; omega

/-- One reduction step's product for batch row `r` and column `q`. -/
def stepSum (c : Dev nD) (r : Fin 512) (q : Fin 1024) (j : Fin 8) : EReal :=
  ∑ kk : Fin 2560, Xa m c (ix2 r (col j kk)) * Wa m c (ix2 (col j kk) q)

theorem sum_le_zero (T : Fin 8 → EReal) : ∑ j ∈ Finset.univ.filter (fun j : Fin 8 => j.val ≤ 0), T j = T 0 := by
  have : Finset.univ.filter (fun j : Fin 8 => j.val ≤ 0) = {0} := by
    ext j
    simp only [Finset.mem_filter, Finset.mem_univ, true_and, Finset.mem_singleton]
    constructor
    · intro hj; exact Fin.ext (by show j.val = 0; omega)
    · intro hj; subst hj; exact le_refl _
  rw [this, Finset.sum_singleton]

theorem sum_le_succ (T : Fin 8 → EReal) (k : ℕ) (hk : k + 1 < 8) :
    ∑ j ∈ Finset.univ.filter (fun j : Fin 8 => j.val ≤ k + 1), T j
      = (∑ j ∈ Finset.univ.filter (fun j : Fin 8 => j.val ≤ k), T j) + T ⟨k + 1, hk⟩ := by
  have : Finset.univ.filter (fun j : Fin 8 => j.val ≤ k + 1)
      = insert (⟨k + 1, hk⟩ : Fin 8) (Finset.univ.filter (fun j : Fin 8 => j.val ≤ k)) := by
    ext j
    simp only [Finset.mem_filter, Finset.mem_univ, true_and, Finset.mem_insert]
    constructor
    · intro hj
      by_cases e : j.val = k + 1
      · exact Or.inl (Fin.ext e)
      · exact Or.inr (by omega)
    · rintro (rfl | hj)
      · exact le_refl _
      · omega
  have hnot : (⟨k + 1, hk⟩ : Fin 8) ∉ Finset.univ.filter (fun j : Fin 8 => j.val ≤ k) := by
    intro hmem
    have h2 := (Finset.mem_filter.mp hmem).2
    dsimp only at h2
    omega
  rw [this, Finset.sum_insert hnot, add_comm]

theorem sum_le_seven (T : Fin 8 → EReal) : ∑ j ∈ Finset.univ.filter (fun j : Fin 8 => j.val ≤ 7), T j = ∑ j, T j := by
  rw [Finset.filter_true_of_mem]
  intro j _
  have := j.isLt
  omega

/-- The partial sum after point `n`, at row `p` of the point's batch half and column `q`: the products of the steps up to the point's. -/
theorem acc_at (c : Dev nD) : ∀ (n : ℕ) (h : n < cfg0.N) (p : Fin 256) (q : Fin 1024),
    (acc m c n h : S256x1024.Idx → EReal) (ix2 p q)
      = ∑ j ∈ Finset.univ.filter (fun j : Fin 8 => j.val ≤ n % 8), stepSum m c (row (half ⟨n, h⟩) p) q j
  | 0, h, p, q => by
    show (k0_pay2 (k0_pay1 (F := Ideal)) (iblk m c 0 ⟨0, h⟩) (iblk m c 1 ⟨0, h⟩) : S256x1024.Idx → EReal) (ix2 p q) = _
    rw [pay2_at, pay1_at, zero_add, show (0 % 8) = 0 from rfl, sum_le_zero]
    unfold stepSum
    refine Finset.sum_congr rfl fun kk _ => ?_
    rw [iblk0_at, iblk1_at]
    rfl
  | n + 1, h, p, q => by
    have hN : cfg0.N = 16 := N_0
    by_cases h0 : (n + 1) % 8 = 0
    · have e : (acc m c (n + 1) h : S256x1024.Idx → EReal) = k0_pay2 (k0_pay1 (F := Ideal)) (iblk m c 0 ⟨n + 1, h⟩) (iblk m c 1 ⟨n + 1, h⟩) := by
        simp only [acc, if_pos h0]
      rw [e, pay2_at, pay1_at, zero_add, h0, sum_le_zero]
      unfold stepSum
      refine Finset.sum_congr rfl fun kk _ => ?_
      rw [iblk0_at, iblk1_at]
      have hs : step ⟨n + 1, h⟩ = 0 := Fin.ext h0
      rw [hs]
    · have e : (acc m c (n + 1) h : S256x1024.Idx → EReal) = k0_pay2 (acc m c n (Nat.lt_of_succ_lt h)) (iblk m c 0 ⟨n + 1, h⟩) (iblk m c 1 ⟨n + 1, h⟩) := by
        simp only [acc, if_neg h0]
      have hk : n % 8 + 1 < 8 := by omega
      have hmod : (n + 1) % 8 = n % 8 + 1 := by omega
      have hhalf : half ⟨n + 1, h⟩ = half ⟨n, Nat.lt_of_succ_lt h⟩ := Fin.ext (by show (n + 1) / 8 = n / 8; omega)
      rw [e, pay2_at, acc_at c n (Nat.lt_of_succ_lt h) p q, hmod, sum_le_succ _ _ hk, hhalf]
      refine congrArg (HAdd.hAdd _) ?_
      unfold stepSum
      refine Finset.sum_congr rfl fun kk _ => ?_
      rw [iblk0_at, iblk1_at, hhalf]
      have hs : step ⟨n + 1, h⟩ = ⟨n % 8 + 1, hk⟩ := Fin.ext hmod
      rw [hs]

end AtIndex

end Cert.KernelIdeal.KValue

end
-- ==== Proof.KernelValue.lean ====
/-
  The kernel's result. After the region the padded result array holds, at batch row `r` and padded column `q`, SELU of
  the dense product of row `r` of the padded `x` with column `q` of the dense weights, summed over the eight reduction
  steps, plus the padded bias; the program's result is its first 1000 columns.

  Each batch half's block is written back once, after the half's eighth step, and the two blocks tile the array.
-/
import proofs.«417313_j45011257262636_2_alg».proof.Proof.KernelAcc
import Idealize.ShloMosaic.Lib.Pipeline.Value
import Idealize.ShloMosaic.Lib.StableHlo.Run

noncomputable section

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.Terms Cert.Cols

variable (m : (ℓ : Loc nD τ sig) → Buf (Elt Ideal) ℓ) (ρ : Dev nD → PrngReg)

/-- The padded result array after the region, as one function of the padded arrays the region finds. -/
def G (c : Dev nD) : S512x1024.Idx → EReal := fun i =>
  actK ((∑ j : Fin 8, stepSum m c (i 0) (i 1) j) + Ba m c (ix2 (0 : Fin 1) (i 1)))

/-- What a batch half's last point writes back is that half's block of `G`. -/
theorem flushed_eq (c : Dev nD) (t : Fin cfg0.N) (hf : (cfg0.win 3).flush t = true) :
    (dats m 0 c).flushed 3 t = ((cfg0.win 3).blk t).view.read (Elt Ideal) (G m c) := by
  have h7 : t.val % 8 = 7 := (flush0_3 t).mp hf
  show (cfg0.win 3).cut (grid0.coords t) ((dats m 0 c).after 3 t) = _
  rw [after0_3, outsAt_eq, if_pos h7]
  funext y
  obtain ⟨p, q, rfl⟩ : ∃ (p : Fin 256) (q : Fin 1024), y = ix2 p q := ⟨y 0, y 1, eq_ix2 y⟩
  rw [View.read_apply]
  have hemb : ((cfg0.win 3).blk t).view.emb (ix2 p q) = ix2 (row (half t) p) q := by
    funext a
    apply Fin.ext
    match a with
    | ⟨0, _⟩ => show win0_3.index t 0 * 256 + 1 * p.val = 256 * (t.val / 8) + p.val; rw [(idx_facts t).2.2.2.2.2.2.1]; omega
    | ⟨1, _⟩ => show win0_3.index t 1 * 1024 + 1 * q.val = q.val; rw [(idx_facts t).2.2.2.2.2.2.2]; omega
  rw [hemb]
  show (k0_pay3 (acc m c t.val t.isLt) (iblk m c 2 ⟨t.val, t.isLt⟩) : S256x1024.Idx → EReal) (ix2 p q) = G m c (ix2 (row (half t) p) q)
  rw [pay3_at, acc_at, h7, sum_le_seven, iblk2_at]
  rfl

/-- Every entry of the padded result array lies in the block of its batch half, which that half's last point writes back. -/
theorem covered (i : S512x1024.Idx) : ∃ t : Fin cfg0.N, (cfg0.win 3).flush t = true ∧ i ∈ ((cfg0.win 3).blk t).view.set := by
  have hN : cfg0.N = 16 := N_0
  have hi0 : (i 0).val < 512 := (i 0).isLt
  have hi1 : (i 1).val < 1024 := (i 1).isLt
  have ht : 8 * ((i 0).val / 256) + 7 < cfg0.N := by omega
  refine ⟨⟨8 * ((i 0).val / 256) + 7, ht⟩, (flush0_3 _).mpr (by show (8 * ((i 0).val / 256) + 7) % 8 = 7; omega), ?_⟩
  show i ∈ ((View.whole main_v20).slice (win0_3.rect ⟨8 * ((i 0).val / 256) + 7, ht⟩)).set
  rw [View.set_slice_whole, Rect.mem_set_unit]
  obtain ⟨-, -, -, -, -, -, e6, e7⟩ := idx_facts ⟨8 * ((i 0).val / 256) + 7, ht⟩
  intro a
  match a with
  | ⟨0, _⟩ =>
    show win0_3.index ⟨8 * ((i 0).val / 256) + 7, ht⟩ (0 : Fin 2) * 256 ≤ (i 0).val ∧ (i 0).val < win0_3.index ⟨8 * ((i 0).val / 256) + 7, ht⟩ (0 : Fin 2) * 256 + 256
    rw [e6]
    show (8 * ((i 0).val / 256) + 7) / 8 * 256 ≤ (i 0).val ∧ (i 0).val < (8 * ((i 0).val / 256) + 7) / 8 * 256 + 256
    omega
  | ⟨1, _⟩ =>
    show win0_3.index ⟨8 * ((i 0).val / 256) + 7, ht⟩ (1 : Fin 2) * 1024 ≤ (i 1).val ∧ (i 1).val < win0_3.index ⟨8 * ((i 0).val / 256) + 7, ht⟩ (1 : Fin 2) * 1024 + 1024
    rw [e7]
    omega

/-- So the padded result array ends at `G`. -/
theorem final_o (c : Dev nD) : (dats m 0 c).arrAt 3 cfg0.N = G m c :=
  (dats m 0 c).arrAt_eq_of_cover 3 (G m c) (flushed_eq m c) (covered)

/-- The program's result: the first 1000 columns of the padded result array. -/
abbrev result (c : Dev nD) : S512x1000.Idx → EReal :=
  extractStridedSlice S512x1000 ![0, 0] (G m c) slices_S512x1024_S512x1000_0_0

/-- The one host operation after the region slices the padded result array. -/
theorem tail_eq (c : Dev nD) :
    Pipeline.afterTail₀ cfgs (dats m) 0 (V0 m) [hostOps1] c main_v21 = result m c := by
  unfold Pipeline.afterTail₀
  show StableHlo.after hostOps1 _ (Proc.devRef .tc main_v21) = _
  after_results
  have e : Pipeline.withArrays (cfgs 0).spec c (V0 m c) (fun w => (dats m 0 c).arrAt w (cfgs 0).N) (Proc.devRef .tc main_v20) = G m c :=
    (Pipeline.withArrays_arr spec0 launch0.win.arr_inj c _ _ 3).trans (final_o m c)
  rw [e]

/-- Every weakly fair execution of the idealized kernel program terminates with its result at `result` and its arguments unchanged. -/
theorem run : θ_run (defs (F := Ideal)) (onTc (τ := τ) (main (F := Ideal))) ⟨m, fun _ => 0, ρ⟩ (fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨((h c).2 main_v21 (Pipeline.mem_restRefs_of main_v21 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue

end
-- ==== Proof.RefValue.lean ====
/-
  The reference: its run, and its result read at an index.
-/
import proofs.«417313_j45011257262636_2_alg».proof.Defs
import proofs.«417313_j45011257262636_2_alg».proof.Proof.Gen.ReferenceIdeal
import proofs.«417313_j45011257262636_2_alg».proof.Proof.Terms
import Idealize.ShloMosaic.Lib.StableHlo.Run
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Terms

variable {F : FTy → Type} [FloatOps F]

/-! ## The reference's result as one term

The stages of the reference in the order it computes them, each a function of the arguments it reads. -/

/-- The input index words normalised: a negative word counts from the end of the axis of extent 20000. -/
def words (ii : IVec S500000 32) : IVec S500000 32 :=
  select (cmpi .slt ii (broadcastInDim S500000 ![] bcast_S_S500000 (constantI S_ 32 0#32)))
    (addi ii (broadcastInDim S500000 ![] bcast_S_S500000 (constantI S_ 32 20000#32))) ii

/-- Per edge, the column of `x` its input index names: entry `(b, e)` is `x` at row `b` and that column. -/
def gathered (x : FVec F S512x20000 .f32) (ii : IVec S500000 32) : FVec F S512x500000 .f32 :=
  Host.gather gather_S512x20000_S500000x1_S512x500000_0_1_n_n_1_1_5121 x
    (broadcastInDim S500000x1 ![0] bcast_S500000_S500000x1_0 (words ii))

/-- The edge weights repeated down the 512 rows. -/
def weights (w : FVec F S500000 .f32) : FVec F S512x500000 .f32 :=
  broadcastInDim S512x500000 ![0, 1] bcast_S1x500000_S512x500000_0_1 (broadcastInDim S1x500000 ![1] bcast_S500000_S1x500000_1 w)

/-- The products, one row per edge. -/
def updates (x : FVec F S512x20000 .f32) (w : FVec F S500000 .f32) (ii : IVec S500000 32) : FVec F S500000x512 .f32 :=
  transpose S500000x512 [1, 0] (mulf (gathered x ii) (weights w)) transposes_S512x500000_S500000x512_1_0

/-- The products summed by output index, from zero: one row per output column. -/
def summed (x : FVec F S512x20000 .f32) (w : FVec F S500000 .f32) (oi ii : IVec S500000 32) : FVec F S1000x512 .f32 :=
  Host.scatterAdd scatter_S1000x512_S500000x1_S500000x512_1_0_0_1
    (broadcastInDim S1000x512 ![] bcast_S_S1000x512 (constant S_ .f32 0x00000000#32))
    (broadcastInDim S500000x1 ![0] bcast_S500000_S500000x1_0 oi) (updates x w ii)

/-- The sums, one row per batch row, plus the bias along the columns: what SELU is applied to. -/
def pre (x : FVec F S512x20000 .f32) (w : FVec F S500000 .f32) (bias : FVec F S1000 .f32) (oi ii : IVec S500000 32) :
    FVec F S512x1000 .f32 :=
  addf (transpose S512x1000 [1, 0] (summed x w oi ii) transposes_S1000x512_S512x1000_1_0)
    (broadcastInDim S512x1000 ![0, 1] bcast_S1x1000_S512x1000_0_1 (broadcastInDim S1x1000 ![1] bcast_S1000_S1x1000_1 bias))

/-- SELU as the reference's three nested functions compute it: scale · (y if y > 0 else alpha · expm1 (0 if y > 0 else y)). -/
def selu (y : FVec F S512x1000 .f32) : FVec F S512x1000 .f32 :=
  mulf (broadcastInDim S512x1000 ![] bcast_S_S512x1000 (constant S_ .f32 0x3F867D5F#32))
    (select (cmpf .ogt y (broadcastInDim S512x1000 ![] bcast_S_S512x1000 (constant S_ .f32 0x00000000#32))) y
      (mulf (broadcastInDim S512x1000 ![] bcast_S_S512x1000 (id (constant S_ .f32 0x3FD62D7D#32)))
        (Host.expm1
          (select (cmpf .ogt y (broadcastInDim S512x1000 ![] bcast_S_S512x1000 (constant S_ .f32 0x00000000#32)))
            (broadcastInDim S512x1000 ![] bcast_S_S512x1000 (id (constant S_ .f32 0x00000000#32))) y))))

/-- The reference's result as ONE term of its five arguments (x, weight, bias, out_idx, in_idx), at any float instance. -/
def term (x : FVec F S512x20000 .f32) (w : FVec F S500000 .f32) (bias : FVec F S1000 .f32) (oi ii : IVec S500000 32) :
    FVec F S512x1000 .f32 := selu (pre x w bias oi ii)

/-! ## The run

@main as one straight line: its own twenty-one operations, then the call of `selu` with the bodies of the functions it
calls written at their call sites over the calls' buffer records. -/

section Run
open Idealize.ShloMosaic.StableHlo

/-- @main's operations in order, the calls unfolded: `selu` is its constant alpha, `elu`'s fifteen (three zeros and
    the two comparisons with their broadcasts, `_where`'s three, the expm1, alpha converted, broadcast and multiplied,
    `_where_0`'s select), then the scale, its broadcast and the product. -/
abbrev ops : List (HloOp τ sig (Elt F)) :=
  [ nullary main_c (constantI S_ 32 0#32),
    unary main_c main_v0 (broadcastInDim S500000 ![] bcast_S_S500000 : (⟨S_, .i32⟩ : BufTy).Contents (Elt F) → (⟨S500000, .i32⟩ : BufTy).Contents (Elt F)),
    binary main_arg4 main_v0 main_v1 (cmpi .slt : (⟨S500000, .i32⟩ : BufTy).Contents (Elt F) → (⟨S500000, .i32⟩ : BufTy).Contents (Elt F) → (⟨S500000, .i1⟩ : BufTy).Contents (Elt F)),
    nullary main_c_0 (constantI S_ 32 20000#32),
    unary main_c_0 main_v2 (broadcastInDim S500000 ![] bcast_S_S500000 : (⟨S_, .i32⟩ : BufTy).Contents (Elt F) → (⟨S500000, .i32⟩ : BufTy).Contents (Elt F)),
    binary main_arg4 main_v2 main_v3 (addi : (⟨S500000, .i32⟩ : BufTy).Contents (Elt F) → (⟨S500000, .i32⟩ : BufTy).Contents (Elt F) → (⟨S500000, .i32⟩ : BufTy).Contents (Elt F)),
    ternary main_v1 main_v3 main_arg4 main_v4 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    unary main_v4 main_v5 (broadcastInDim S500000x1 ![0] bcast_S500000_S500000x1_0 : (⟨S500000, .i32⟩ : BufTy).Contents (Elt F) → (⟨S500000x1, .i32⟩ : BufTy).Contents (Elt F)),
    binary main_arg0 main_v5 main_v6 ((fun x i => Host.gather gather_S512x20000_S500000x1_S512x500000_0_1_n_n_1_1_5121 x i) : (⟨S512x20000, .f32⟩ : BufTy).Contents (Elt F) → (⟨S500000x1, .i32⟩ : BufTy).Contents (Elt F) → (⟨S512x500000, .f32⟩ : BufTy).Contents (Elt F)),
    unary main_arg1 main_v7 (broadcastInDim S1x500000 ![1] bcast_S500000_S1x500000_1 : (⟨S500000, .f32⟩ : BufTy).Contents (Elt F) → (⟨S1x500000, .f32⟩ : BufTy).Contents (Elt F)),
    unary main_v7 main_v8 (broadcastInDim S512x500000 ![0, 1] bcast_S1x500000_S512x500000_0_1 : (⟨S1x500000, .f32⟩ : BufTy).Contents (Elt F) → (⟨S512x500000, .f32⟩ : BufTy).Contents (Elt F)),
    binary main_v6 main_v8 main_v9 (mulf : (⟨S512x500000, .f32⟩ : BufTy).Contents (Elt F) → (⟨S512x500000, .f32⟩ : BufTy).Contents (Elt F) → (⟨S512x500000, .f32⟩ : BufTy).Contents (Elt F)),
    unary main_v9 main_v10 ((transpose S500000x512 [1, 0] · transposes_S512x500000_S500000x512_1_0) : (⟨S512x500000, .f32⟩ : BufTy).Contents (Elt F) → (⟨S500000x512, .f32⟩ : BufTy).Contents (Elt F)),
    nullary main_cst (constant S_ .f32 0x00000000#32),
    unary main_cst main_v11 (broadcastInDim S1000x512 ![] bcast_S_S1000x512 : (⟨S_, .f32⟩ : BufTy).Contents (Elt F) → (⟨S1000x512, .f32⟩ : BufTy).Contents (Elt F)),
    unary main_arg3 main_v12 (broadcastInDim S500000x1 ![0] bcast_S500000_S500000x1_0 : (⟨S500000, .i32⟩ : BufTy).Contents (Elt F) → (⟨S500000x1, .i32⟩ : BufTy).Contents (Elt F)),
    ternary main_v11 main_v12 main_v10 main_v13 ((fun x i u => Host.scatterAdd scatter_S1000x512_S500000x1_S500000x512_1_0_0_1 x i u) : (⟨S1000x512, .f32⟩ : BufTy).Contents (Elt F) → (⟨S500000x1, .i32⟩ : BufTy).Contents (Elt F) → (⟨S500000x512, .f32⟩ : BufTy).Contents (Elt F) → (⟨S1000x512, .f32⟩ : BufTy).Contents (Elt F)),
    unary main_v13 main_v14 ((transpose S512x1000 [1, 0] · transposes_S1000x512_S512x1000_1_0) : (⟨S1000x512, .f32⟩ : BufTy).Contents (Elt F) → (⟨S512x1000, .f32⟩ : BufTy).Contents (Elt F)),
    unary main_arg2 main_v15 (broadcastInDim S1x1000 ![1] bcast_S1000_S1x1000_1 : (⟨S1000, .f32⟩ : BufTy).Contents (Elt F) → (⟨S1x1000, .f32⟩ : BufTy).Contents (Elt F)),
    unary main_v15 main_v16 (broadcastInDim S512x1000 ![0, 1] bcast_S1x1000_S512x1000_0_1 : (⟨S1x1000, .f32⟩ : BufTy).Contents (Elt F) → (⟨S512x1000, .f32⟩ : BufTy).Contents (Elt F)),
    binary main_v14 main_v16 main_v17 (addf : (⟨S512x1000, .f32⟩ : BufTy).Contents (Elt F) → (⟨S512x1000, .f32⟩ : BufTy).Contents (Elt F) → (⟨S512x1000, .f32⟩ : BufTy).Contents (Elt F)),
    TRef.nullary main_call0.cst (constant S_ .f32 0x3FD62D7D#32),
    TRef.nullary main_call0.call0.cst (constant S_ .f32 0x00000000#32),
    TRef.unary main_call0.call0.cst main_call0.call0.v0 (broadcastInDim S512x1000 ![] bcast_S_S512x1000),
    TRef.binary (.of main_v17) main_call0.call0.v0 main_call0.call0.v1 (cmpf .ogt),
    TRef.nullary main_call0.call0.cst_0 (constant S_ .f32 0x00000000#32),
    TRef.unary main_call0.call0.cst_0 main_call0.call0.v2 (broadcastInDim S512x1000 ![] bcast_S_S512x1000),
    TRef.binary (.of main_v17) main_call0.call0.v2 main_call0.call0.v3 (cmpf .ogt),
    TRef.nullary main_call0.call0.cst_1 (constant S_ .f32 0x00000000#32),
    TRef.unary main_call0.call0.cst_1 main_call0.call0.call0.v0 id,
    TRef.unary main_call0.call0.call0.v0 main_call0.call0.call0.v1 (broadcastInDim S512x1000 ![] bcast_S_S512x1000),
    TRef.ternary main_call0.call0.v3 main_call0.call0.call0.v1 (.of main_v17) main_call0.call0.call0.v2 select,
    TRef.unary main_call0.call0.call0.v2 main_call0.call0.v5 Host.expm1,
    TRef.unary main_call0.cst main_call0.call0.v6 id,
    TRef.unary main_call0.call0.v6 main_call0.call0.v7 (broadcastInDim S512x1000 ![] bcast_S_S512x1000),
    TRef.binary main_call0.call0.v7 main_call0.call0.v5 main_call0.call0.v8 mulf,
    TRef.ternary main_call0.call0.v1 (.of main_v17) main_call0.call0.v8 main_call0.call0.call1.v0 select,
    TRef.nullary main_call0.cst_0 (constant S_ .f32 0x3F867D5F#32),
    TRef.unary main_call0.cst_0 main_call0.v1 (broadcastInDim S512x1000 ![] bcast_S_S512x1000),
    TRef.binary main_call0.v1 main_call0.call0.call1.v0 main_call0.v2 mulf ]

-- forty sequenced steps re-associated, one level of recursion per step
set_option maxRecDepth 2048 in
/-- @main is that straight line: the functions unfolded at their calls and the records at their fields, both sides are
    one chain of steps once sequencing is re-associated. -/
theorem main_eq (c : Dev nD) : main (F := F) c = seq ops := by
  simp only [main, fn_selu.body, fn_elu.body, fn_where.body, fn_where_0.body, seq, bind_assoc, pure_bind]

/-- No buffer of the signature is scoped, and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    unary_bufs_sub .., nullary_bufs_sub .., unary_bufs_sub .., unary_bufs_sub .., ternary_bufs_sub .., unary_bufs_sub ..,
    unary_bufs_sub .., unary_bufs_sub .., binary_bufs_sub ..,
    nullary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    unary_bufs_sub .., unary_bufs_sub .., binary_bufs_sub .., ternary_bufs_sub .., nullary_bufs_sub .., unary_bufs_sub ..,
    binary_bufs_sub ..⟩

end Run

section Results
open Idealize.ShloMosaic.StableHlo

attribute [local irreducible] Host.gather Host.scatterAdd transpose broadcastInDim Host.expm1 in
set_option maxRecDepth 8192 in
/-- The fold at the result buffer is `term` of the arguments' contents: each operation's result read at its own buffer is
    its function's value, and the typed references' transports are the identity at these literal references. The
    re-indexings, the gather and the scatter stay folded: the equation never looks inside them. -/
theorem out_eq (V : Valuation τ sig (Elt F)) :
    after ops V (main_v18 : DevRef τ sig)
      = term (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes an argument: the fold leaves each of the five as it was. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

end Results

/-- Every weakly fair execution of the reference terminates with its result at `term` of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c : Thread nD τ).loc main_v18)
          = term (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c main_v18).trans (out_eq _), (h c main_arg0).trans (arg0_eq _),
      (h c main_arg1).trans (arg1_eq _), (h c main_arg2).trans (arg2_eq _), (h c main_arg3).trans (arg3_eq _),
      (h c main_arg4).trans (arg4_eq _)⟩)
    (StableHlo.run_seq scopedRefs_eq scopedSems_eq defs main (fun _ => ops) main_eq (fun _ => ops_sub) m ρ)

/-! ## The stages read at an index, over the extended reals -/

section Apply

/-- SELU at an element is the reference's spelling of it on that element. -/
theorem selu_apply (y : FVec Ideal S512x1000 .f32) (j : S512x1000.Idx) : selu (F := Ideal) y j = actR (y j) := rfl

/-- The normalised index word of edge `e`. -/
theorem words_apply (ii : IVec S500000 32) (j : S500000.Idx) : words ii j = wrap 20000#32 (ii j) := rfl

/-- A column vector of index words read at `(e, 0)` is the word of `e`. -/
theorem col_apply {α : Type} (v : S500000.Idx → α) (e : Fin 500000) (u : Fin 1) :
    broadcastInDim S500000x1 ![0] bcast_S500000_S500000x1_0 v (ix2 e u) = v (ix1 e) :=
  broadcastInDim_apply _ _ v _ _ fun a => match a with | ⟨0, _⟩ => rfl

/-- The weights repeated down the rows read, at `(b, e)`, the weight of edge `e`. -/
theorem weights_apply (w : FVec Ideal S500000 .f32) (b : Fin 512) (e : Fin 500000) : weights w (ix2 b e) = w (ix1 e) := by
  unfold weights
  refine (broadcastInDim_apply _ _ _ _ (ix2 (0 : Fin 1) e) fun a => match a with | ⟨0, _⟩ => rfl | ⟨1, _⟩ => rfl).trans ?_
  exact broadcastInDim_apply _ _ w _ _ fun a => match a with | ⟨0, _⟩ => rfl

/-- The bias repeated down the rows reads, at `(b, o)`, the bias of column `o`. -/
theorem bias_apply (bias : FVec Ideal S1000 .f32) (b : Fin 512) (o : Fin 1000) :
    broadcastInDim S512x1000 ![0, 1] bcast_S1x1000_S512x1000_0_1 (broadcastInDim S1x1000 ![1] bcast_S1000_S1x1000_1 bias) (ix2 b o)
      = bias (ix1 o) := by
  refine (broadcastInDim_apply _ _ _ _ (ix2 (0 : Fin 1) o) fun a => match a with | ⟨0, _⟩ => rfl | ⟨1, _⟩ => rfl).trans ?_
  exact broadcastInDim_apply _ _ bias _ _ fun a => match a with | ⟨0, _⟩ => rfl

/-- The products transposed read, at `(e, b)`, the entry `(b, e)`. -/
theorem tr_updates_apply {α : Type} (z : S512x500000.Idx → α) (e : Fin 500000) (b : Fin 512) :
    transpose S500000x512 [1, 0] z transposes_S512x500000_S500000x512_1_0 (ix2 e b) = z (ix2 b e) :=
  transpose_apply _ z _ _ _ fun c => match c with | ⟨0, _⟩ => rfl | ⟨1, _⟩ => rfl
/-- The sums transposed read, at `(b, o)`, the entry `(o, b)`. -/
theorem tr_summed_apply {α : Type} (z : S1000x512.Idx → α) (b : Fin 512) (o : Fin 1000) :
    transpose S512x1000 [1, 0] z transposes_S1000x512_S512x1000_1_0 (ix2 b o) = z (ix2 o b) :=
  transpose_apply _ z _ _ _ fun c => match c with | ⟨0, _⟩ => rfl | ⟨1, _⟩ => rfl

end Apply

section Gather

local notation "gd" => gather_S512x20000_S500000x1_S512x500000_0_1_n_n_1_1_5121

/-- On an axis pair the two axes are distinct. -/
theorem fin2_zero_ne_one (h0 : 0 < 2) : (⟨0, h0⟩ : Fin 2) ≠ 1 := fun h => Nat.zero_ne_one (congrArg Fin.val h)
/-- The same, the other way round. -/
theorem fin2_one_ne_zero (h1 : 1 < 2) : (⟨1, h1⟩ : Fin 2) ≠ 0 := fun h => Nat.one_ne_zero (congrArg Fin.val h)

/-- The gather read at `(b, e)`: `x` at row `b` and at the column the start word of edge `e` names, read signed and
    clamped into [0, 19999]. Row axis: no start, the result's own row coordinate as offset; column axis: the clamped
    start, the slice being one column wide. -/
theorem gather_apply {α : Type} (x : S512x20000.Idx → α) (idx : IVec S500000x1 32) (b : Fin 512) (e : Fin 500000) :
    Host.gather gd x idx (ix2 b e) = x (ix2 b (clampIdx (idx (ix2 e (0 : Fin 1))))) := by
  unfold Host.gather
  congr 1
  funext a
  refine Fin.ext ?_
  show GatherDims.start gd (ix2 b e) idx a + GatherDims.batchCoord gd (ix2 b e) a + GatherDims.offCoord gd (ix2 b e) a = _
  rw [GatherDims.batchCoord_eq_zero _ _ _ List.not_mem_nil, Nat.add_zero]
  match a with
  | ⟨0, h0⟩ =>
    have hs : GatherDims.start gd (ix2 b e) idx ⟨0, h0⟩ = 0 := by
      unfold GatherDims.start
      rw [dif_neg (show ¬ (⟨0, h0⟩ : Fin 2) ∈ GatherDims.startIndexMap gd from fun h => fin2_zero_ne_one h0 (List.mem_singleton.mp h))]
    have ho : GatherDims.offCoord gd (ix2 b e) ⟨0, h0⟩ = b.val := by
      unfold GatherDims.offCoord
      rw [dif_pos (show (⟨0, h0⟩ : Fin 2) ∈ GatherDims.sKept gd from (GatherDims.mem_sKept _ _).mpr
        ⟨fun h => fin2_zero_ne_one h0 (List.mem_singleton.mp h), List.not_mem_nil⟩)]
      rfl
    rw [hs, ho, Nat.zero_add]
  | ⟨1, h1⟩ =>
    have ho : GatherDims.offCoord gd (ix2 b e) ⟨1, h1⟩ = 0 :=
      GatherDims.offCoord_eq_zero _ _ _ (fun h => ((GatherDims.mem_sKept _ _).mp h).1 (List.mem_singleton.mpr rfl))
    rw [ho, Nat.add_zero]
    unfold GatherDims.start
    rw [dif_pos (show (⟨1, h1⟩ : Fin 2) ∈ GatherDims.startIndexMap gd from List.mem_singleton.mpr rfl)]
    have hsi : GatherDims.siIdx gd (ix2 b e) ⟨List.idxOf (⟨1, h1⟩ : Fin 2) (GatherDims.startIndexMap gd),
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl

end Gather

section Scatter

local notation "sd" => scatter_S1000x512_S500000x1_S500000x512_1_0_0_1

/-- Where update `(e, r)` starts on the operand's column axis (axis 0 of the sums): the output word of edge `e`, read
    signed and not clamped. -/
theorem sc_start0 (idx : IVec S500000x1 32) (e : Fin 500000) (r : Fin 512) (h0 : 0 < 2) :
    ScatterDims.start sd (ix2 e r) idx ⟨0, h0⟩ = (idx (ix2 e (0 : Fin 1))).toInt := by
  unfold ScatterDims.start
  rw [dif_pos (show (⟨0, h0⟩ : Fin 2) ∈ ScatterDims.scatterDimsToOperandDims sd from List.mem_singleton.mpr rfl)]
  have hsi : ScatterDims.siIdx sd (ix2 e r) ⟨List.idxOf (⟨0, h0⟩ : Fin 2) (ScatterDims.scatterDimsToOperandDims sd),
      List.idxOf_lt_length_iff.2 (List.mem_singleton.mpr rfl)⟩ = ix2 e (0 : Fin 1) := by
    funext c; refine Fin.ext ?_
    match c with
    | ⟨0, _⟩ => rfl
    | ⟨1, _⟩ => rfl
  rw [hsi]

/-- The row axis (axis 1 of the sums) is no scatter axis: the start is 0 there. -/
theorem sc_start1 (idx : IVec S500000x1 32) (e : Fin 500000) (r : Fin 512) (h1 : 1 < 2) :
    ScatterDims.start sd (ix2 e r) idx ⟨1, h1⟩ = 0 := by
  unfold ScatterDims.start
  rw [dif_neg (show ¬ (⟨1, h1⟩ : Fin 2) ∈ ScatterDims.scatterDimsToOperandDims sd from
    fun h => fin2_one_ne_zero h1 (List.mem_singleton.mp h))]

/-- The column axis is inserted: no window coordinate there. -/
theorem sc_window0 (e : Fin 500000) (r : Fin 512) (h0 : 0 < 2) : ScatterDims.window sd (ix2 e r) ⟨0, h0⟩ = 0 := by
  unfold ScatterDims.window
  rw [dif_neg (show ¬ (⟨0, h0⟩ : Fin 2) ∈ ScatterDims.sKept sd from fun h => by
    have := (List.mem_filter.mp h).2
    simp at this
    exact this (List.mem_singleton.mpr rfl))]

/-- The row axis takes the update's row coordinate as window coordinate. -/
theorem sc_window1 (e : Fin 500000) (r : Fin 512) (h1 : 1 < 2) : ScatterDims.window sd (ix2 e r) ⟨1, h1⟩ = r.val := by
  unfold ScatterDims.window
  rw [dif_pos (show (⟨1, h1⟩ : Fin 2) ∈ ScatterDims.sKept sd from
    List.mem_filter.mpr ⟨List.mem_finRange _, by
      simp only [decide_eq_true_eq]
      exact fun h => fin2_one_ne_zero h1 (List.mem_singleton.mp h)⟩)]
  rfl

end Scatter

section Landing

local notation "sd" => scatter_S1000x512_S500000x1_S500000x512_1_0_0_1

/-- Update `(e, r)` lands at entry `(o, b)` of the sums exactly when edge `e`'s output word, read signed, is `o` and
    `r` is `b`: the column is the unclamped start alone, the row the window coordinate alone, and an update whose word is
    outside [0, 999] lands nowhere. -/
theorem resultIdx_iff (idx : IVec S500000x1 32) (e : Fin 500000) (r : Fin 512) (o : Fin 1000) (b : Fin 512) :
    ScatterDims.resultIdx? sd (ix2 e r) idx = some (ix2 o b)
      ↔ (idx (ix2 e (0 : Fin 1))).toInt = (o.val : ℤ) ∧ r = b := by
  have k0 : ∀ h0 : 0 < 2, ScatterDims.start sd (ix2 e r) idx ⟨0, h0⟩ + (ScatterDims.window sd (ix2 e r) ⟨0, h0⟩ : ℤ)
      = (idx (ix2 e (0 : Fin 1))).toInt := by
    intro h0; rw [sc_start0, sc_window0]; simp
  have k1 : ∀ h1 : 1 < 2, ScatterDims.start sd (ix2 e r) idx ⟨1, h1⟩ + (ScatterDims.window sd (ix2 e r) ⟨1, h1⟩ : ℤ)
      = (r.val : ℤ) := by
    intro h1; rw [sc_start1, sc_window1]; simp
  have ho := o.isLt
  have hr := r.isLt
  have hb := b.isLt
  unfold ScatterDims.resultIdx?
  constructor
  · intro h
    by_cases hin : ∀ a, 0 ≤ ScatterDims.start sd (ix2 e r) idx a + (ScatterDims.window sd (ix2 e r) a : ℤ)
        ∧ ScatterDims.start sd (ix2 e r) idx a + (ScatterDims.window sd (ix2 e r) a : ℤ) < (S1000x512.size a : ℤ)
    · rw [dif_pos hin] at h
      have hf := Option.some.inj h
      have e0 : (ScatterDims.start sd (ix2 e r) idx ⟨0, by decide⟩
          + (ScatterDims.window sd (ix2 e r) ⟨0, by decide⟩ : ℤ)).toNat = o.val :=
        congrArg Fin.val (congrFun hf ⟨0, by decide⟩)
      have e1 : (ScatterDims.start sd (ix2 e r) idx ⟨1, by decide⟩
          + (ScatterDims.window sd (ix2 e r) ⟨1, by decide⟩ : ℤ)).toNat = b.val :=
        congrArg Fin.val (congrFun hf ⟨1, by decide⟩)
      have p0 := (hin ⟨0, by decide⟩).1
      rw [k0] at e0 p0
      rw [k1] at e1
      exact ⟨by omega, Fin.ext (by omega)⟩
    · rw [dif_neg hin] at h
      exact absurd h (by simp)
  · rintro ⟨ht, rfl⟩
    have hin : ∀ a, 0 ≤ ScatterDims.start sd (ix2 e r) idx a + (ScatterDims.window sd (ix2 e r) a : ℤ)
        ∧ ScatterDims.start sd (ix2 e r) idx a + (ScatterDims.window sd (ix2 e r) a : ℤ) < (S1000x512.size a : ℤ) := by
      intro a
      match a with
      | ⟨0, h0⟩ =>
        rw [k0, ht]
        refine ⟨by omega, ?_⟩
        show (o.val : ℤ) < ((1000 : ℕ) : ℤ)
        omega
      | ⟨1, h1⟩ =>
        rw [k1]
        refine ⟨by omega, ?_⟩
        show (r.val : ℤ) < ((512 : ℕ) : ℤ)
        omega
    rw [dif_pos hin]
    refine congrArg some (funext fun a => Fin.ext ?_)
    match a with
    | ⟨0, h0⟩ =>
      show (ScatterDims.start sd (ix2 e r) idx ⟨0, h0⟩ + (ScatterDims.window sd (ix2 e r) ⟨0, h0⟩ : ℤ)).toNat = o.val
      rw [k0, ht]; omega
    | ⟨1, h1⟩ =>
      show (ScatterDims.start sd (ix2 e r) idx ⟨1, h1⟩ + (ScatterDims.window sd (ix2 e r) ⟨1, h1⟩ : ℤ)).toNat = r.val
      rw [k1]; omega

end Landing

section Sum

local notation "sd" => scatter_S1000x512_S500000x1_S500000x512_1_0_0_1

/-- Over the extended reals the accumulating scatter is exact: each operand entry plus the sum of the updates that land
    on it. -/
theorem scatterAdd_apply {s si u : Shape} {n : Nat} (d : ScatterDims s si u) (z : FVec Ideal s .f32) (idx : IVec si n)
    (upd : FVec Ideal u .f32) (i : s.Idx) :
    Host.scatterAdd d z idx upd i = z i + ∑ j ∈ Finset.univ.filter (fun j => d.resultIdx? j idx = some i), upd j := rfl

/-- The products read at `(e, b)`: the gathered entry of `x` for edge `e` at row `b`, times the edge's weight. -/
theorem updates_apply (x : FVec Ideal S512x20000 .f32) (w : FVec Ideal S500000 .f32) (ii : IVec S500000 32)
    (e : Fin 500000) (b : Fin 512) :
    updates (F := Ideal) x w ii (ix2 e b) = x (ix2 b (clampIdx (wrap 20000#32 (ii (ix1 e))))) * w (ix1 e) := by
  unfold updates
  rw [tr_updates_apply, mulf_apply, weights_apply]
  unfold gathered
  rw [gather_apply, col_apply, words_apply]

/-- The sums read at `(o, b)`: from zero, the products of the edges whose output word is `o`, at row `b`. The sum over
    the (edge, row) pairs that land on `(o, b)` is, edge by edge, the one row `b` when the edge's word is `o` and
    nothing otherwise. -/
theorem summed_apply (x : FVec Ideal S512x20000 .f32) (w : FVec Ideal S500000 .f32) (oi ii : IVec S500000 32)
    (o : Fin 1000) (b : Fin 512) :
    summed (F := Ideal) x w oi ii (ix2 o b)
      = ∑ e ∈ Finset.univ.filter (fun e : Fin 500000 => (oi (ix1 e)).toInt = (o.val : ℤ)),
          x (ix2 b (clampIdx (wrap 20000#32 (ii (ix1 e))))) * w (ix1 e) := by
  unfold summed
  rw [scatterAdd_apply]
  have hz : broadcastInDim S1000x512 ![] bcast_S_S1000x512 (constant (F := Ideal) S_ .f32 0x00000000#32) (ix2 o b) = 0 :=
    Ideal.ofBits_zero_f32
  rw [hz, zero_add, Finset.sum_filter, sum_idx2, Finset.sum_filter]
  refine Finset.sum_congr rfl fun e _ => ?_
  by_cases hq : (oi (ix1 e)).toInt = (o.val : ℤ)
  · rw [if_pos hq, Finset.sum_eq_single b]
    · rw [if_pos ((resultIdx_iff _ e b o b).mpr ⟨by rw [col_apply]; exact hq, rfl⟩), updates_apply]
    · intro r _ hrb
      rw [if_neg (fun h => hrb ((resultIdx_iff _ e r o b).mp h).2)]
    · intro h
      exact absurd (Finset.mem_univ b) h
  · rw [if_neg hq]
    refine Finset.sum_eq_zero fun r _ => ?_
    rw [if_neg (fun h => hq (by
      have := ((resultIdx_iff _ e r o b).mp h).1
      rwa [col_apply] at this))]

/-- What SELU is applied to, read at `(b, o)`: the sum for column `o` at row `b`, plus the bias of column `o`. -/
theorem pre_apply (x : FVec Ideal S512x20000 .f32) (w : FVec Ideal S500000 .f32) (bias : FVec Ideal S1000 .f32)
    (oi ii : IVec S500000 32) (b : Fin 512) (o : Fin 1000) :
    pre (F := Ideal) x w bias oi ii (ix2 b o) = summed (F := Ideal) x w oi ii (ix2 o b) + bias (ix1 o) := by
  unfold pre
  rw [addf_apply, tr_summed_apply, bias_apply]

end Sum

/-- The reference's result at batch row `b`, output column `o`, over the extended reals: SELU (the reference's spelling) of
    the sum, over the edges whose output index is `o`, of the gathered entry of `x` times the edge's weight, plus the bias. -/
theorem term_apply (x : FVec Ideal S512x20000 .f32) (w : FVec Ideal S500000 .f32) (bias : FVec Ideal S1000 .f32)
    (oi ii : IVec S500000 32) (b : Fin 512) (o : Fin 1000) :
    term (F := Ideal) x w bias oi ii (ix2 b o)
      = actR ((∑ e ∈ Finset.univ.filter (fun e : Fin 500000 => (oi (ix1 e)).toInt = (o.val : ℤ)),
                x (ix2 b (clampIdx (wrap 20000#32 (ii (ix1 e))))) * w (ix1 e)) + bias (ix1 o)) := by
  unfold term
  rw [selu_apply, pre_apply, summed_apply]

end Cert.ReferenceIdeal.RefValue

end
-- ==== Proof.lean ====
/-
  The certificate of a sparse linear layer with SELU: `selu(y)`, `y[b, o] = Σ over the edges e with out_idx[e] = o of
  weight[e] · x[b, in_idx[e]] + bias[o]`, for x [512, 20000], 500000 edges, 1000 output columns.

  The kernel's program scatters the edge weights into a dense matrix W [20480, 1024] (the row of an edge its input
  column, the column its output column; rows past 20000 and columns past 1000 are padding), pads x with zero columns to
  20480 and the bias with zeros to 1024, and runs a dense product in eight reduction steps of 2560 columns on each half
  of the batch, the running block kept between the steps; the last step adds the bias and applies SELU written with
  `exp y − 1`; the first 1000 columns are the result. The reference gathers the columns of x the edges name, multiplies
  by the weights, sums the products by output column, adds the bias and applies SELU written with expm1.

  On the precondition's domain — every float finite, every input-column index in [0, 20000), every output-column index
  non-negative — the two are one function over the extended reals. An index word in range is read as itself by both
  programs; a dense entry W[k, o] is the sum of the weights of the edges (k, o); all entries being real, the factor
  x[b, k] distributes over that sum, and the double sum over columns and edges regroups edge by edge (each edge meets
  exactly its own column; the padded columns carry zero). An output-column index past 1000 lands, in the kernel's
  program, on a padding column the final slice drops, or outside the matrix; in the reference it is dropped: such
  an edge contributes to no result column in either. The two spellings of SELU agree since expm1 y = exp y − 1.

  The frames of the two kernel programs are the generated ones; the reference's frame is its run with the result dropped.
-/
import proofs.«417313_j45011257262636_2_alg».proof.Defs
import proofs.«417313_j45011257262636_2_alg».proof.Proof.Gen.Kernel
import proofs.«417313_j45011257262636_2_alg».proof.Proof.Gen.Kernel.Frame
import proofs.«417313_j45011257262636_2_alg».proof.Proof.Gen.KernelIdeal
import proofs.«417313_j45011257262636_2_alg».proof.Proof.Gen.KernelIdeal.Frame
import proofs.«417313_j45011257262636_2_alg».proof.Proof.Gen.ReferenceIdeal
import proofs.«417313_j45011257262636_2_alg».proof.Proof.Gen.Pre_finite_inputs
import proofs.«417313_j45011257262636_2_alg».proof.Proof.PreFacts
import proofs.«417313_j45011257262636_2_alg».proof.Proof.Bridge
import proofs.«417313_j45011257262636_2_alg».proof.Proof.KernelHost
import proofs.«417313_j45011257262636_2_alg».proof.Proof.KernelValue
import proofs.«417313_j45011257262636_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- The ideal pass rewrote nothing. -/
theorem preserves : Cert.preserves_Kernel_KernelIdeal := trivial

open Cert.KernelIdeal in
/-- On the precondition's domain the reference's term of the arguments is the kernel's result, index by index: the
    result's column `o` is the padded array's column `o`, and there the bridge applies, with what the three padded
    arrays hold at an index. -/
theorem value_eq (m : (ℓ : Loc nD τ sig) → Buf (Elt Ideal) ℓ) (c : Dev nD)
    (hp : Cert.Pre_finite_inputs.fn (F := Ideal) (HostVal.xin m c) (HostVal.win m c) (HostVal.bin m c) (HostVal.oin m c) (HostVal.iin m c) = fun _ => 1#1) :
    Cert.ReferenceIdeal.RefValue.term (F := Ideal) (HostVal.xin m c) (HostVal.win m c) (HostVal.bin m c) (HostVal.oin m c) (HostVal.iin m c)
      = KValue.result m c := by
  funext i
  obtain ⟨b, o, rfl⟩ : ∃ (b : Fin 512) (o : Fin 1000), i = ix2 b o := ⟨i 0, i 1, eq_ix2 i⟩
  rw [Cert.ReferenceIdeal.RefValue.term_apply]
  have hs : KValue.result m c (ix2 b o) = KValue.G m c (ix2 b (Cert.Cols.ocol o)) :=
    extractStridedSlice_apply _ _ _ _ _ fun a => by
      match a with
      | ⟨0, _⟩ => show b.val = 0 + b.val; omega
      | ⟨1, _⟩ => show o.val = 0 + o.val; omega
  rw [hs]
  unfold KValue.G KValue.stepSum
  exact (Cert.Bridge.value_eq (HostVal.xin m c) (HostVal.win m c) (HostVal.bin m c) (HostVal.oin m c) (HostVal.iin m c)
    (KValue.Xa m c) (KValue.Wa m c) (KValue.Ba m c)
    (Cert.PreFacts.dom_of_pre _ _ _ _ _ hp) (HostVal.Warr_apply m c) (HostVal.Xarr_apply m c) (HostVal.Barr_apply m c) b o).symm

/-- Both idealized programs run, from memories that agree on the arguments, to equal results. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2]
  exact value_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
